-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S2x3200000 : Shape := ⟨2, ![2, 3200000]⟩
abbrev S500x16 : Shape := ⟨2, ![500, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S500x16 : S_.BroadcastsInDim S500x16 (![] : Fin 0 → Fin S500x16.rank)
  reducesTo_S500x16_S_d0_1 : S500x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x500 .f32) (main_arg1 : IVec S2x3200000 32) (main_arg2 : FVec F S500x16 .f32) (main_arg3 : FVec F S16 .f32) (main_arg4 : FVec F S16x7 .f32) (main_arg5 : FVec F S7 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S500x16 .f32 := Host.absf main_arg2
  let main_cst_0 : FVec F S_ .f32 := constant S_ .f32 0x7F800000#32
  let main_v5 : FVec F S500x16 .f32 := broadcastInDim S500x16 ![] bcast_S_S500x16 main_cst_0
  let main_v6 : IVec S500x16 1 := cmpf .olt main_v4 main_v5
  let main_c_1 : IVec S_ 1 := constantI S_ 1 1#1
  let main_v7 : IVec S_ 1 := (fun x v => Host.reduce IntOp.andi x v reducesTo_S500x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x500 : Shape := ⟨2, ![100000, 500]⟩
abbrev S2x3200000 : Shape := ⟨2, ![2, 3200000]⟩
abbrev S500x16 : Shape := ⟨2, ![500, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x500 : Shape := ⟨2, ![2000, 500]⟩
abbrev S2000x16 : Shape := ⟨2, ![2000, 16]⟩
abbrev S3300000x16 : Shape := ⟨2, ![3300000, 16]⟩
abbrev S1x16 : Shape := ⟨2, ![1, 16]⟩
abbrev S100000x7 : Shape := ⟨2, ![100000, 7]⟩
abbrev S2000x7 : Shape := ⟨2, ![2000, 7]⟩
abbrev S3300000x7 : Shape := ⟨2, ![3300000, 7]⟩
abbrev S1x7 : Shape := ⟨2, ![1, 7]⟩
abbrev S2000 : Shape := ⟨1, ![2000]⟩
abbrev S2000x1 : Shape := ⟨2, ![2000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x500, .f32⟩
  | .hbm, ⟨1, _⟩ => ⟨S2x3200000, .i32⟩
  | .hbm, ⟨2, _⟩ => ⟨S500x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x7, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x7, .f32⟩
  | .hbm, ⟨75, _⟩ => ⟨S3300000x1, .f32⟩
  | .hbm, ⟨76, _⟩ => ⟨S3300000x7, .f32⟩
  | .hbm, ⟨77, _⟩ => ⟨S3300000x7, .f32⟩
  | .hbm, ⟨78, _⟩ => ⟨S_, .f32⟩
  | .hbm, ⟨79, _⟩ => ⟨S100000x7, .f32⟩
  | .hbm, ⟨80, _⟩ => ⟨S3300000x1, .i32⟩
  | .hbm, ⟨81, _⟩ => ⟨S100000x7, .f32⟩
  | .hbm, ⟨82, _⟩ => ⟨S1x7, .f32⟩
  | .hbm, ⟨83, _⟩ => ⟨S100000x7, .f32⟩
  | .local _ .vmem, ⟨0, _⟩ => ⟨S2000x500, .f32⟩
  | .local _ .vmem, ⟨1, _⟩ => ⟨S2000x500, .f32⟩
  | .local _ .vmem, ⟨2, _⟩ => ⟨S500x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S1x16, .f32⟩
  | .local _ .vmem, ⟨8, _⟩ => ⟨S2000x16, .f32⟩
  | .local _ .vmem, ⟨9, _⟩ => ⟨S2000x16, .f32⟩
  | .local _ .vmem, ⟨10, _⟩ => ⟨S2000x16, .f32⟩
  | .local _ .vmem, ⟨11, _⟩ => ⟨S2000x16, .f32⟩
  | .local _ .vmem, ⟨12, _⟩ => ⟨S16x7, .f32⟩
  | .local _ .vmem, ⟨13, _⟩ => ⟨S2000x7, .f32⟩
  | .local _ .vmem, ⟨14, _⟩ => ⟨S2000x7, .f32⟩
  | .local _ .vmem, ⟨15, _⟩ => ⟨S2000x7, .f32⟩
  | .local _ .vmem, ⟨16, _⟩ => ⟨S2000x7, .f32⟩
  | .local _ .vmem, ⟨17, _⟩ => ⟨S1x7, .f32⟩
  | .local _ .vmem, ⟨18, _⟩ => ⟨S2000x7, .f32⟩
  | .local _ .vmem, ⟨19, _⟩ => ⟨S2000x7, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x7 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x7 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x7 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x500_S2000x500_0_0 : ∀ a, (![0, 0] : Fin 2 → Nat) a + S2000x500.size a ≤ S2000x500.size a
  h_S2000x500 : 0 < S2000x500.numel
  bitsLt_bf16_f32 : FTy.bits .bf16 < FTy.bits .f32
  inb_S500x16_S500x16_0_0 : ∀ a, (![0, 0] : Fin 2 → Nat) a + S500x16.size a ≤ S500x16.size a
  h_S500x16 : 0 < S500x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x7_S16x7_0_0 : ∀ a, (![0, 0] : Fin 2 → Nat) a + S16x7.size a ≤ S16x7.size a
  h_S16x7 : 0 < S16x7.numel
  inb_S2000x7_S2000x7_0_0 : ∀ a, (![0, 0] : Fin 2 → Nat) a + S2000x7.size a ≤ S2000x7.size a
  h_S2000x7 : 0 < S2000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  shapeCasts_S7_S1x7 : S7.ShapeCasts S1x7
  shapeCasts_S2000x7_S2000x7 : S2000x7.ShapeCasts S2000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S2000x7 : S1x7.Broadcasts S2000x7
  reduces_S2000x7_S2000 : S2000x7.Reduces [1] S2000
  shapeCasts_S2000_S2000x1 : S2000.ShapeCasts S2000x1
  broadcasts_S2000x1_S2000x7 : S2000x1.Broadcasts S2000x7
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x500_S500x16_S2000x16_1_0_0_1_n_n_wf : DotDims.WF S2000x500 S500x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x7_S2000x7_1_0_0_1_n_n_wf : DotDims.WF S2000x16 S16x7 S2000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x500.size a ≤ S100000x500.size a
  hwx0_0 : ∀ i : grid0.Coords, EltTy.bits .f32 = 32 ∨ (Rect.block (s := S100000x500) S2000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x16.size a ≤ S500x16.size a
  hwx0_1 : ∀ i : grid0.Coords, EltTy.bits .f32 = 32 ∨ (Rect.block (s := S500x16) S500x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x7.size a ≤ S16x7.size a
  hwx2_1 : ∀ i : grid2.Coords, EltTy.bits .f32 = 32 ∨ (Rect.block (s := S16x7) S16x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x7.size a ≤ S100000x7.size a
  hwx2_2 : ∀ i : grid2.Coords, EltTy.bits .f32 = 32 ∨ (Rect.block (s := S100000x7) S2000x7.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x7.size a ≤ S100000x7.size a
  hwx3_0 : ∀ i : grid3.Coords, EltTy.bits .f32 = 32 ∨ (Rect.block (s := S100000x7) S2000x7.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x7.size a ≤ S1x7.size a
  hwx3_1 : ∀ i : grid3.Coords, EltTy.bits .f32 = 32 ∨ (Rect.block (s := S1x7) S1x7.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x7.size a ≤ S100000x7.size a
  hwx3_2 : ∀ i : grid3.Coords, EltTy.bits .f32 = 32 ∨ (Rect.block (s := S100000x7) S2000x7.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x500_S500x16_S2000x16_1_0_0_1_n_n : DotDims S2000x500 S500x16 S2000x16 where
  lhsContracting := [1]
  rhsContracting := [0]
  lhsNonContracting := [0]
  rhsNonContracting := [1]
  lhsBatch := []
  rhsBatch := []
  wf := dot_S2000x500_S500x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x7_S2000x7_1_0_0_1_n_n : DotDims S2000x16 S16x7 S2000x7 where
  lhsContracting := [1]
  rhsContracting := [0]
  lhsNonContracting := [0]
  rhsNonContracting := [1]
  lhsBatch := []
  rhsBatch := []
  wf := dot_S2000x16_S16x7_S2000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S2000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x7.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x7.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x7.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x500 : Shape := ⟨2, ![100000, 500]⟩
abbrev S2x3200000 : Shape := ⟨2, ![2, 3200000]⟩
abbrev S500x16 : Shape := ⟨2, ![500, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x500, .f32⟩
  | .hbm, ⟨1, _⟩ => ⟨S2x3200000, .i32⟩
  | .hbm, ⟨2, _⟩ => ⟨S500x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x7, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x7, .f32⟩
  | .hbm, ⟨79, _⟩ => ⟨S3300000x1, .f32⟩
  | .hbm, ⟨80, _⟩ => ⟨S3300000x7, .f32⟩
  | .hbm, ⟨81, _⟩ => ⟨S3300000x7, .f32⟩
  | .hbm, ⟨82, _⟩ => ⟨S_, .f32⟩
  | .hbm, ⟨83, _⟩ => ⟨S100000x7, .f32⟩
  | .hbm, ⟨84, _⟩ => ⟨S3300000x1, .i32⟩
  | .hbm, ⟨85, _⟩ => ⟨S100000x7, .f32⟩
  | .hbm, ⟨86, _⟩ => ⟨S1x7, .f32⟩
  | .hbm, ⟨87, _⟩ => ⟨S100000x7, .f32⟩
  | .hbm, ⟨88, _⟩ => ⟨S100000x7, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x7, .f32⟩
  | .hbm, ⟨96, _⟩ => ⟨S100000x7, .f32⟩
  | .hbm, ⟨97, _⟩ => ⟨S100000x7, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x7, .f32⟩
  | .hbm, ⟨103, _⟩ => ⟨S100000x7, .f32⟩
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x500_S500x16_S100000x16_1_0_0_1_n_n_wf : DotDims.WF S100000x500 S500x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x500_S500x16_S100000x16_1_0_0_1_n_n : DotDims S100000x500 S500x16 S100000x16 where
  lhsContracting := [1]
  rhsContracting := [0]
  lhsNonContracting := [0]
  rhsNonContracting := [1]
  lhsBatch := []
  rhsBatch := []
  wf := dot_S100000x500_S500x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.RefSide.lean ====
/-
  The reference program, stage by stage, as functions of what its dense stages receive.

  The reference is a two-layer graph convolution. Each layer is a dense projection `h · W`, then an aggregation over
  the edges (a gather of the projected rows at the source nodes, scaled by the symmetric normalisation, summed into
  the destination nodes), then a bias. After the first layer comes `max(·, 0)`; after the second, `log_softmax` over
  the seven classes. Only the dense stages are named here: `biasRelu`, `proj2` and `logSoftmax`, each a function of
  the aggregated array (or the hidden layer) and the layer's parameter, with the stage of the read-back run it equals.
  The aggregations are never opened.
-/
import proofs.«138651_j89704686944356_1_alg».proof.Proof.RefRun
import proofs.«138651_j89704686944356_1_alg».proof.Proof.RefRead
import Mathlib.Data.Finset.Fold

noncomputable section

namespace Cert.RefSide

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- The first layer's epilogue: the bias, one number per hidden unit, added to every node's row, then `max(·, 0)`. -/
def biasRelu (a : (⟨S100000x16, .f32⟩ : BufTy).Contents (Elt F)) (b : (⟨S16, .f32⟩ : BufTy).Contents (Elt F)) :
    (⟨S100000x16, .f32⟩ : BufTy).Contents (Elt F) :=
  maximumf (addf a (broadcastInDim S100000x16 ![0, 1] bcast_S1x16_S100000x16_0_1 (broadcastInDim S1x16 ![1] bcast_S16_S1x16_1 b)))
    (broadcastInDim S100000x16 ![] bcast_S_S100000x16 (constant S_ .f32 0x00000000#32))

/-- The hidden layer is `biasRelu` of the first aggregation and the first bias. -/
theorem val_main_v47_eq (x0 : (⟨S100000x500, .f32⟩ : BufTy).Contents (Elt F)) (x1 : (⟨S2x3200000, .i32⟩ : BufTy).Contents (Elt F))
    (x2 : (⟨S500x16, .f32⟩ : BufTy).Contents (Elt F)) (x3 : (⟨S16, .f32⟩ : BufTy).Contents (Elt F)) :
    val_main_v47 (F := F) x0 x1 x2 x3 = biasRelu (val_main_v43 (F := F) x0 x1 x2) x3 := by
  unfold val_main_v47 val_main_v46 val_main_v45 val_main_v44 val_main_call1_v0 val_main_call1_cst biasRelu
  rfl

/-- The second layer's projection: each node's sixteen hidden values against the 16 × 7 weights. -/
def proj2 (h : (⟨S100000x16, .f32⟩ : BufTy).Contents (Elt F)) (w : (⟨S16x7, .f32⟩ : BufTy).Contents (Elt F)) :
    (⟨S100000x7, .f32⟩ : BufTy).Contents (Elt F) :=
  Host.dotGeneral dot_S100000x16_S16x7_S100000x7_1_0_0_1_n_n none h w

/-- The second projection is `proj2` of the hidden layer and the second weights. -/
theorem val_main_v48_eq (x0 : (⟨S100000x500, .f32⟩ : BufTy).Contents (Elt F)) (x1 : (⟨S2x3200000, .i32⟩ : BufTy).Contents (Elt F))
    (x2 : (⟨S500x16, .f32⟩ : BufTy).Contents (Elt F)) (x3 : (⟨S16, .f32⟩ : BufTy).Contents (Elt F))
    (x4 : (⟨S16x7, .f32⟩ : BufTy).Contents (Elt F)) :
    val_main_v48 (F := F) x0 x1 x2 x3 x4 = proj2 (val_main_v47 (F := F) x0 x1 x2 x3) x4 := by
  unfold val_main_v48 proj2
  rfl

/-- The logits: the second aggregation plus the bias, one number per class, on every node's row. -/
def logits (a : (⟨S100000x7, .f32⟩ : BufTy).Contents (Elt F)) (b : (⟨S7, .f32⟩ : BufTy).Contents (Elt F)) :
    (⟨S100000x7, .f32⟩ : BufTy).Contents (Elt F) :=
  addf a (broadcastInDim S100000x7 ![0, 1] bcast_S1x7_S100000x7_0_1 (broadcastInDim S1x7 ![1] bcast_S7_S1x7_1 b))

/-- The logits less their row's maximum (the maximum taken from `-inf`, and once more against `-inf`). -/
def shifted (a : (⟨S100000x7, .f32⟩ : BufTy).Contents (Elt F)) (b : (⟨S7, .f32⟩ : BufTy).Contents (Elt F)) :
    (⟨S100000x7, .f32⟩ : BufTy).Contents (Elt F) :=
  subf (logits a b)
    (broadcastInDim S100000x7 ![0, 1] bcast_S100000x1_S100000x7_0_1
      (broadcastInDim S100000x1 ![0] bcast_S100000_S100000x1_0
        (maximumf (broadcastInDim S100000 ![] bcast_S_S100000 (constant S_ .f32 0xFF800000#32))
          (Host.reduce FloatOps.maximumf (logits a b) (constant S_ .f32 0xFF800000#32) reducesTo_S100000x7_S100000_d1 h_S_))))

/-- `log_softmax` of the logits: the shifted logits less the logarithm of the row's sum of their exponentials. -/
def logSoftmax (a : (⟨S100000x7, .f32⟩ : BufTy).Contents (Elt F)) (b : (⟨S7, .f32⟩ : BufTy).Contents (Elt F)) :
    (⟨S100000x7, .f32⟩ : BufTy).Contents (Elt F) :=
  subf (shifted a b)
    (broadcastInDim S100000x7 ![0, 1] bcast_S100000x1_S100000x7_0_1
      (Host.log (broadcastInDim S100000x1 ![0] bcast_S100000_S100000x1_0
        (Host.reduceAdd (Host.exp (shifted a b)) (constant S_ .f32 0x00000000#32) reducesTo_S100000x7_S100000_d1 h_S_))))

/-- The reference's result is `logSoftmax` of the second aggregation and the second bias. -/
theorem val_main_v65_eq (x0 : (⟨S100000x500, .f32⟩ : BufTy).Contents (Elt F)) (x1 : (⟨S2x3200000, .i32⟩ : BufTy).Contents (Elt F))
    (x2 : (⟨S500x16, .f32⟩ : BufTy).Contents (Elt F)) (x3 : (⟨S16, .f32⟩ : BufTy).Contents (Elt F))
    (x4 : (⟨S16x7, .f32⟩ : BufTy).Contents (Elt F)) (x5 : (⟨S7, .f32⟩ : BufTy).Contents (Elt F)) :
    val_main_v65 (F := F) x0 x1 x2 x3 x4 x5 = logSoftmax (val_main_v61 (F := F) x0 x1 x2 x3 x4) x5 := by
  unfold val_main_v65 val_main_call2_v10 val_main_call2_v9 val_main_call2_v8 val_main_call2_v7 val_main_call2_cst_1
    val_main_call2_v6 val_main_call2_v5 val_main_call2_v4 val_main_call2_v3 val_main_call2_v2 val_main_call2_v1
    val_main_call2_cst_0 val_main_call2_v0 val_main_call2_cst val_main_v64 val_main_v63 val_main_v62
    logSoftmax shifted logits
  rfl

/-! ## The dense stages read at an index (over the extended reals) -/

section AtAnIndex

open Idealize.ShloMosaic.ValueIdx

/-- The first projection at node r, hidden unit q: row r of the features against column q of the weights. -/
theorem proj1_apply (x : (⟨S100000x500, .f32⟩ : BufTy).Contents (Elt Ideal)) (w : (⟨S500x16, .f32⟩ : BufTy).Contents (Elt Ideal))
    (i : S100000x16.Idx) :
    val_main_v30 (F := Ideal) x w i = ∑ k : Fin 500, x (ix2 (i 0) k) * w (ix2 k (i 1)) := by
  rw [val_main_v30_apply]
  refine Finset.sum_congr rfl fun k _ => ?_
  have el : lidx_main_v30 i k = ix2 (i 0) k := funext fun a => Fin.ext (by
    match a with
    | ⟨0, _⟩ => rfl
    | ⟨1, _⟩ => rfl)
  have er : ridx_main_v30 i k = ix2 k (i 1) := funext fun a => Fin.ext (by
    match a with
    | ⟨0, _⟩ => rfl
    | ⟨1, _⟩ => rfl)
  rw [el, er]
  rfl

/-- The second projection at node r, class q: row r of the hidden layer against column q of the weights. -/
theorem proj2_apply (h : (⟨S100000x16, .f32⟩ : BufTy).Contents (Elt Ideal)) (w : (⟨S16x7, .f32⟩ : BufTy).Contents (Elt Ideal))
    (i : S100000x7.Idx) :
    proj2 (F := Ideal) h w i = ∑ k : Fin 16, h (ix2 (i 0) k) * w (ix2 k (i 1)) := by
  unfold proj2
  simp only [Host.dotGeneral]
  rw [Ideal.dotGeneral_apply, ← Equiv.sum_comp (ValueIdx.contrEquiv1 dot_S100000x16_S16x7_S100000x7_1_0_0_1_n_n 16 rfl rfl).symm]
  refine Finset.sum_congr rfl fun k _ => ?_
  have hk := ValueIdx.contrEquiv1_symm_val dot_S100000x16_S16x7_S100000x7_1_0_0_1_n_n 16 rfl rfl k
  have el : dot_S100000x16_S16x7_S100000x7_1_0_0_1_n_n.lhsIdx i ((ValueIdx.contrEquiv1 dot_S100000x16_S16x7_S100000x7_1_0_0_1_n_n 16 rfl rfl).symm k) = ix2 (i 0) k := funext fun a => Fin.ext (by
    match a with
    | ⟨0, _⟩ => exact lhs_main_v48_0 _ _
    | ⟨1, _⟩ => exact (lhs_main_v48_1 _ _).trans hk)
  have er : dot_S100000x16_S16x7_S100000x7_1_0_0_1_n_n.rhsIdx i ((ValueIdx.contrEquiv1 dot_S100000x16_S16x7_S100000x7_1_0_0_1_n_n 16 rfl rfl).symm k) = ix2 k (i 1) := funext fun a => Fin.ext (by
    match a with
    | ⟨0, _⟩ => exact (rhs_main_v48_0 _ _).trans hk
    | ⟨1, _⟩ => exact rhs_main_v48_1 _ _)
  rw [el, er]
  rfl

/-- The first epilogue at node r, hidden unit q: the aggregated entry plus the bias of unit q, or zero if that is
    negative. The bias reaches every row through a one-row array; the zero is a scalar broadcast. -/
theorem biasRelu_apply (a : (⟨S100000x16, .f32⟩ : BufTy).Contents (Elt Ideal)) (b : (⟨S16, .f32⟩ : BufTy).Contents (Elt Ideal))
    (r : Fin 100000) (q : Fin 16) :
    biasRelu (F := Ideal) a b (ix2 r q) = max (a (ix2 r q) + b (ix1 q)) 0 := by
  unfold biasRelu
  rw [maximumf_apply, addf_apply,
    broadcastInDim_apply ![0, 1] bcast_S1x16_S100000x16_0_1 _ (ix2 r q) (ix2 (0 : Fin 1) q) (fun ax => by
      match ax with
      | ⟨0, _⟩ => rfl
      | ⟨1, _⟩ => rfl),
    broadcastInDim_apply ![1] bcast_S16_S1x16_1 _ (ix2 (0 : Fin 1) q) (ix1 q) (fun ax => by
      match ax with
      | ⟨0, _⟩ => rfl),
    broadcastInDim_apply ![] bcast_S_S100000x16 _ (ix2 r q) ix0 (fun ax => ax.elim0)]
  exact congrArg (max _) Ideal.ofBits_zero_f32

end AtAnIndex

/-! ## log_softmax of a row -/

/-- The largest of a row's seven logits, the maximum taken from `-inf`. -/
def rowMax (L : Fin 7 → EReal) : EReal :=
  (Finset.univ : Finset (Fin 7)).fold max (Ideal.ofBits .f32 0xFF800000#32) L

/-- `log_softmax` of a row of seven logits at class q: the logit less the row's maximum, less the logarithm of the sum of
    the exponentials of the logits so shifted. -/
def rowLogSoftmax (L : Fin 7 → EReal) (q : Fin 7) : EReal :=
  (L q - rowMax L) - Ideal.log (∑ k : Fin 7, Ideal.exp (L k - rowMax L))

/-- Taking the maximum against `-inf` once more changes nothing: the row's maximum was taken from it. -/
theorem max_rowMax (L : Fin 7 → EReal) : max (Ideal.ofBits .f32 0xFF800000#32) (rowMax L) = rowMax L :=
  max_eq_right ((Finset.le_fold_max _).mpr (Or.inl le_rfl))

section AtAnIndexLogSoftmax

open Idealize.ShloMosaic.ValueIdx

/-- The logits at node r, class k: the aggregated entry plus the bias of class k. -/
theorem logits_apply (a : (⟨S100000x7, .f32⟩ : BufTy).Contents (Elt Ideal)) (b : (⟨S7, .f32⟩ : BufTy).Contents (Elt Ideal))
    (r : Fin 100000) (k : Fin 7) :
    logits (F := Ideal) a b (ix2 r k) = a (ix2 r k) + b (ix1 k) := by
  unfold logits
  rw [addf_apply,
    broadcastInDim_apply ![0, 1] bcast_S1x7_S100000x7_0_1 _ (ix2 r k) (ix2 (0 : Fin 1) k) (fun ax => by
      match ax with
      | ⟨0, _⟩ => rfl
      | ⟨1, _⟩ => rfl),
    broadcastInDim_apply ![1] bcast_S7_S1x7_1 _ (ix2 (0 : Fin 1) k) (ix1 k) (fun ax => by
      match ax with
      | ⟨0, _⟩ => rfl)]

/-- The reference's row maximum at node r (a fold over the class axis from `-inf`, then once more against `-inf`) is
    the row's maximum. -/
theorem refRowMax_apply (a : (⟨S100000x7, .f32⟩ : BufTy).Contents (Elt Ideal)) (b : (⟨S7, .f32⟩ : BufTy).Contents (Elt Ideal))
    (r : Fin 100000) :
    maximumf (broadcastInDim S100000 ![] bcast_S_S100000 (constant (F := Ideal) S_ .f32 0xFF800000#32))
        (Host.reduce FloatOps.maximumf (logits (F := Ideal) a b) (constant S_ .f32 0xFF800000#32) reducesTo_S100000x7_S100000_d1 h_S_)
        (ix1 r)
      = rowMax (fun k => a (ix2 r k) + b (ix1 k)) := by
  have hR : S100000x7.Reduces [1] S100000 := by decide
  rw [maximumf_apply, broadcastInDim_apply ![] bcast_S_S100000 _ (ix1 r) ix0 (fun ax => ax.elim0),
    Host.reduce_eq_fold_single FloatOps.maximumf _ _ reducesTo_S100000x7_S100000_d1 hR h_S_ (ix1 r)]
  have hf : (logits (F := Ideal) a b ∘ hR.lift (ix1 r)) = fun k : Fin 7 => a (ix2 r k) + b (ix1 k) := funext fun k => by
    show logits (F := Ideal) a b (hR.lift (ix1 r) k) = _
    rw [show hR.lift (ix1 r) k = ix2 r k from funext fun ax => Fin.ext (by
      match ax with
      | ⟨0, _⟩ => rfl
      | ⟨1, _⟩ => rfl)]
    exact logits_apply a b r k
  rw [hf]
  exact max_rowMax _

/-- The host's logarithm read at an index is the logarithm of the entry. -/
theorem hostLog_apply {s : Shape} (x : FVec Ideal s .f32) (i : s.Idx) : Host.log x i = Ideal.log (x i) := rfl

/-- The shifted logits at node r, class k: the logit less the row's maximum. -/
theorem shifted_apply (a : (⟨S100000x7, .f32⟩ : BufTy).Contents (Elt Ideal)) (b : (⟨S7, .f32⟩ : BufTy).Contents (Elt Ideal))
    (r : Fin 100000) (k : Fin 7) :
    shifted (F := Ideal) a b (ix2 r k)
      = (a (ix2 r k) + b (ix1 k)) - rowMax (fun k' => a (ix2 r k') + b (ix1 k')) := by
  unfold shifted
  rw [subf_apply, logits_apply,
    broadcastInDim_apply ![0, 1] bcast_S100000x1_S100000x7_0_1 _ (ix2 r k) (ix2 r (0 : Fin 1)) (fun ax => by
      match ax with
      | ⟨0, _⟩ => rfl
      | ⟨1, _⟩ => rfl),
    broadcastInDim_apply ![0] bcast_S100000_S100000x1_0 _ (ix2 r (0 : Fin 1)) (ix1 r) (fun ax => by
      match ax with
      | ⟨0, _⟩ => rfl),
    refRowMax_apply]

/-- The reference's row sum at node r (a sum over the class axis from zero) of the exponentials of the shifted logits. -/
theorem refRowSum_apply (a : (⟨S100000x7, .f32⟩ : BufTy).Contents (Elt Ideal)) (b : (⟨S7, .f32⟩ : BufTy).Contents (Elt Ideal))
    (r : Fin 100000) :
    Host.reduceAdd (F := Ideal) (Host.exp (shifted (F := Ideal) a b)) (constant (F := Ideal) S_ .f32 0x00000000#32) reducesTo_S100000x7_S100000_d1 h_S_ (ix1 r)
      = ∑ k : Fin 7, Ideal.exp ((a (ix2 r k) + b (ix1 k)) - rowMax (fun k' => a (ix2 r k') + b (ix1 k'))) := by
  have hR : S100000x7.Reduces [1] S100000 := by decide
  simp only [Host.reduceAdd, Ideal.hostReduceAdd_def]
  rw [Ideal.hostReduceAdd_single reducesTo_S100000x7_S100000_d1 hR]
  refine (congrArg (· + _) Ideal.ofBits_zero_f32).trans ((zero_add _).trans (Finset.sum_congr rfl fun (k : Fin 7) _ => ?_))
  show Ideal.exp (shifted (F := Ideal) a b (hR.lift (ix1 r) k)) = _
  rw [show hR.lift (ix1 r) k = ix2 r k from funext fun ax => Fin.ext (by
    match ax with
    | ⟨0, _⟩ => rfl
    | ⟨1, _⟩ => rfl), shifted_apply]

/-- The reference's `log_softmax` at node r, class q is `rowLogSoftmax` of the row's logits. -/
theorem logSoftmax_apply (a : (⟨S100000x7, .f32⟩ : BufTy).Contents (Elt Ideal)) (b : (⟨S7, .f32⟩ : BufTy).Contents (Elt Ideal))
    (r : Fin 100000) (q : Fin 7) :
    logSoftmax (F := Ideal) a b (ix2 r q) = rowLogSoftmax (fun k => a (ix2 r k) + b (ix1 k)) q := by
  unfold logSoftmax rowLogSoftmax
  rw [subf_apply, shifted_apply,
    broadcastInDim_apply ![0, 1] bcast_S100000x1_S100000x7_0_1 _ (ix2 r q) (ix2 r (0 : Fin 1)) (fun ax => by
      match ax with
      | ⟨0, _⟩ => rfl
      | ⟨1, _⟩ => rfl)]
  rw [hostLog_apply, broadcastInDim_apply ![0] bcast_S100000_S100000x1_0 _ (ix2 r (0 : Fin 1)) (ix1 r) (fun ax => by
      match ax with
      | ⟨0, _⟩ => rfl),
    refRowSum_apply]

end AtAnIndexLogSoftmax

end Cert.RefSide

end
-- ==== Proof.Region0.lean ====
/-
  The first projection region: what its output array holds after the run.

  The region's grid has 50 points. At point t the pipeline stages rows 2000·t … 2000·t + 1999 of the feature array
  (all 500 columns) and the whole 500 × 16 weight array; the body multiplies the two staged blocks, accumulating from
  zero; the result block is written back to the same rows of the output array. Over the extended reals a block product
  from zero at (p, q) is the sum over k of left(p, k) · right(k, q), so entry (r, q) of the output is the sum over k of
  features(r, k) · weights(k, q), whichever block row r falls in, and the 50 blocks cover the 100000 rows. The
  reference's whole-array product is the same sum. (The kernel narrows both blocks to bf16 first; over the extended
  reals a change of float format is the identity.)
-/
import proofs.«138651_j89704686944356_1_alg».proof.Proof.Gen.KernelIdeal.Frame
import proofs.«138651_j89704686944356_1_alg».proof.Proof.RefSide

set_option maxRecDepth 16384

noncomputable section

namespace Cert.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## One function for the whole array -/

/-- Entry (r, q) of the output: row r of the features against column q of the weights. -/
def out (x : S100000x500.Idx → EReal) (w : S500x16.Idx → EReal) : S100000x16.Idx → EReal :=
  fun i => ∑ k : Fin 500, x (ix2 (i 0) k) * w (ix2 k (i 1))

theorem hz : (![0, 0] : Fin 2 → Nat) = fun _ => 0 := funext fun a => by fin_cases a <;> rfl

/-! ## The block product at an index -/

/-- The block product's dimension numbers: on its free axis the left operand's index reads the result's row. -/
theorem lhs_blk_0 (i : S2000x16.Idx) (q : dot_S2000x500_S500x16_S2000x16_1_0_0_1_n_n.contr.Idx) :
    (dot_S2000x500_S500x16_S2000x16_1_0_0_1_n_n.lhsIdx i q 0).val = (i 0).val := by
  unfold DotDims.lhsIdx
  rw [dif_neg (show ¬(0 : Fin S2000x500.rank) ∈ dot_S2000x500_S500x16_S2000x16_1_0_0_1_n_n.lhsBatch by decide), dif_pos (show (0 : Fin S2000x500.rank) ∈ dot_S2000x500_S500x16_S2000x16_1_0_0_1_n_n.lhsNonContracting by decide)]
  rfl
/-- On its contracted axis it reads the contraction's position. -/
theorem lhs_blk_1 (i : S2000x16.Idx) (q : dot_S2000x500_S500x16_S2000x16_1_0_0_1_n_n.contr.Idx) :
    (dot_S2000x500_S500x16_S2000x16_1_0_0_1_n_n.lhsIdx i q 1).val = (q ⟨0, by decide⟩).val :=
  dot_S2000x500_S500x16_S2000x16_1_0_0_1_n_n.lhsIdx_val_of_single rfl i q
/-- The right operand's index reads the position on its contracted axis. -/
theorem rhs_blk_0 (i : S2000x16.Idx) (q : dot_S2000x500_S500x16_S2000x16_1_0_0_1_n_n.contr.Idx) :
    (dot_S2000x500_S500x16_S2000x16_1_0_0_1_n_n.rhsIdx i q 0).val = (q ⟨0, by decide⟩).val :=
  dot_S2000x500_S500x16_S2000x16_1_0_0_1_n_n.rhsIdx_val_of_single rfl i q
/-- … and the result's column on its free axis. -/
theorem rhs_blk_1 (i : S2000x16.Idx) (q : dot_S2000x500_S500x16_S2000x16_1_0_0_1_n_n.contr.Idx) :
    (dot_S2000x500_S500x16_S2000x16_1_0_0_1_n_n.rhsIdx i q 1).val = (i 1).val := by
  unfold DotDims.rhsIdx
  rw [dif_neg (show ¬(1 : Fin S500x16.rank) ∈ dot_S2000x500_S500x16_S2000x16_1_0_0_1_n_n.rhsBatch by decide), dif_pos (show (1 : Fin S500x16.rank) ∈ dot_S2000x500_S500x16_S2000x16_1_0_0_1_n_n.rhsNonContracting by decide)]
  rfl

/-- The body's stored value is the product of the two staged blocks, narrowed, accumulated from zero. -/
theorem payload_eq (x0 : Vec Ideal S2000x500 .f32) (x1 : Vec Ideal S500x16 .f32) :
    k0_pay1 (F := Ideal) x0 x1
      = matmul dot_S2000x500_S500x16_S2000x16_1_0_0_1_n_n none (truncf .bf16 x0 bitsLt_bf16_f32) (truncf .bf16 x1 bitsLt_bf16_f32)
          (constant S2000x16 .f32 0x00000000#32) := rfl

/-- At row p, column q of the block it is the sum over k of left(p, k) · right(k, q). -/
theorem payload_apply (x0 : Vec Ideal S2000x500 .f32) (x1 : Vec Ideal S500x16 .f32) (p : Fin 2000) (q : Fin 16) :
    k0_pay1 (F := Ideal) x0 x1 (ix2 p q) = ∑ k : Fin 500, x0 (ix2 p k) * x1 (ix2 k q) := by
  rw [payload_eq]
  simp only [matmul]
  rw [Ideal.matmul_constant_zero_apply, ← Equiv.sum_comp (ValueIdx.contrEquiv1 dot_S2000x500_S500x16_S2000x16_1_0_0_1_n_n 500 rfl rfl).symm]
  refine Finset.sum_congr rfl fun k _ => ?_
  have hk := ValueIdx.contrEquiv1_symm_val dot_S2000x500_S500x16_S2000x16_1_0_0_1_n_n 500 rfl rfl k
  have el : dot_S2000x500_S500x16_S2000x16_1_0_0_1_n_n.lhsIdx (ix2 p q) ((ValueIdx.contrEquiv1 dot_S2000x500_S500x16_S2000x16_1_0_0_1_n_n 500 rfl rfl).symm k) = ix2 p k := funext fun a => Fin.ext (by
    match a with
    | ⟨0, _⟩ => exact lhs_blk_0 _ _
    | ⟨1, _⟩ => exact (lhs_blk_1 _ _).trans hk)
  have er : dot_S2000x500_S500x16_S2000x16_1_0_0_1_n_n.rhsIdx (ix2 p q) ((ValueIdx.contrEquiv1 dot_S2000x500_S500x16_S2000x16_1_0_0_1_n_n 500 rfl rfl).symm k) = ix2 k q := funext fun a => Fin.ext (by
    match a with
    | ⟨0, _⟩ => exact (rhs_blk_0 _ _).trans hk
    | ⟨1, _⟩ => exact rhs_blk_1 _ _)
  rw [el, er]
  rfl

/-! ## The index maps, decided over the grid -/

/-- At point t the feature array's window and the output's window are both at block row t, block column 0; the
    weights' window stays at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section

variable (V : (c : Dev nD) → (b : Ref sig .tc) → Buf (Elt Ideal) ((c : Thread nD τ).loc b))

/-! ## The staged blocks, over the arrays themselves -/

/-- The feature array's block at point t reads the array through the block's embedding. -/
theorem blk_x (c : Dev nD) (t : Fin cfg0.N) (x : S100000x500.Idx → EReal) (hx : V c main_arg0 = x) :
    iblk0 V c 0 t = fun y => x (((cfg0.win 0).blk t).view.emb y) := by
  unfold iblk0
  rw [show V c (Pipeline.arrRef spec0 0) = x from hx]
  rfl

/-- The weights' block at point t reads the array through the block's embedding. -/
theorem blk_w (c : Dev nD) (t : Fin cfg0.N) (w : S500x16.Idx → EReal) (hw : V c main_arg2 = w) :
    iblk0 V c 1 t = fun y => w (((cfg0.win 1).blk t).view.emb y) := by
  unfold iblk0
  rw [show V c (Pipeline.arrRef spec0 1) = w from hw]
  rfl

/-! ## What a point writes back -/

/-- What point t writes back is block t of `out` of the two arrays as the region finds them. -/
theorem flushed_eq (c : Dev nD) (t : Fin cfg0.N) (x : S100000x500.Idx → EReal) (w : S500x16.Idx → EReal)
    (hx : V c main_arg0 = x) (hw : V c main_arg2 = w) :
    (dat0 (F := Ideal) V c).flushed 2 t = ((cfg0.win 2).blk t).view.read (Elt Ideal) (out x w) := by
  show (cfg0.win 2).cut (grid0.coords t) ((dat0 (F := Ideal) V c).after 2 t) = _
  rw [after0_2, blk_x V c t x hx, blk_w V c t w hw]
  unfold out0_2
  rw [View.canon_unit_zero hz]
  simp only [View.ld_unit_zero (S := S2000x500) hz, View.ld_unit_zero (S := S500x16) hz]
  obtain ⟨e0, e1, e2, e3, e4, e5⟩ := idx_facts t
  funext j
  obtain ⟨p, q, rfl⟩ : ∃ (p : Fin 2000) (q : Fin 16), j = ix2 p q := ⟨j 0, j 1, eq_ix2 j⟩
  refine (payload_apply (fun y => x (((cfg0.win 0).blk t).view.emb y)) (fun y => w (((cfg0.win 1).blk t).view.emb y)) p q).trans ?_
  show ∑ k : Fin 500, x (((cfg0.win 0).blk t).view.emb (ix2 p k)) * w (((cfg0.win 1).blk t).view.emb (ix2 k q))
    = ∑ k : Fin 500, x (ix2 ((((cfg0.win 2).blk t).view.emb (ix2 p q)) 0) k) * w (ix2 k ((((cfg0.win 2).blk t).view.emb (ix2 p q)) 1))
  refine Finset.sum_congr rfl fun k _ => ?_
  have h0 : ((cfg0.win 0).blk t).view.emb (ix2 p k) = ix2 ((((cfg0.win 2).blk t).view.emb (ix2 p q)) 0) k := by
    funext ax; apply Fin.ext
    match ax with
    | ⟨0, _⟩ => show win0_0.index t (0 : Fin 2) * 2000 + 1 * p.val = win0_2.index t (0 : Fin 2) * 2000 + 1 * p.val; omega
    | ⟨1, _⟩ => show win0_0.index t (1 : Fin 2) * 500 + 1 * k.val = k.val; omega
  have h1 : ((cfg0.win 1).blk t).view.emb (ix2 k q) = ix2 k ((((cfg0.win 2).blk t).view.emb (ix2 p q)) 1) := by
    funext ax; apply Fin.ext
    match ax with
    | ⟨0, _⟩ => show win0_1.index t (0 : Fin 2) * 500 + 1 * k.val = k.val; omega
    | ⟨1, _⟩ => show win0_1.index t (1 : Fin 2) * 16 + 1 * q.val = win0_2.index t (1 : Fin 2) * 16 + 1 * q.val; omega
  rw [h0, h1]
  rfl

/-! ## The blocks cover the array -/

/-- An index of the array is in point t's block iff each coordinate is in the block's range on its axis. -/
theorem mem_blk (t : Fin cfg0.N) (i : S100000x16.Idx) :
    i ∈ ((cfg0.win 2).blk t).view.set ↔ ∀ ax : Fin 2, win0_2.index t ax * S2000x16.size ax ≤ (i ax).val ∧ (i ax).val < win0_2.index t ax * S2000x16.size ax + S2000x16.size ax := by
  show i ∈ ((View.whole main_v30).slice (win0_2.rect t)).set ↔ _
  rw [View.set_slice_whole, Rect.mem_set_unit]
  exact Iff.rfl

/-- Row r lies in the block of point r / 2000. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  let t : Fin cfg0.N := ⟨(i 0).val / 2000, by show (i 0).val / 2000 < 50; omega⟩
  obtain ⟨e0, e1, e2, e3, e4, e5⟩ := idx_facts t
  have ht : t.val = (i 0).val / 2000 := rfl
  refine ⟨t, flush0_2 t, ?_⟩
  rw [mem_blk]
  intro ax
  match ax with
  | ⟨0, _⟩ => show win0_2.index t (0 : Fin 2) * 2000 ≤ (i 0).val ∧ (i 0).val < win0_2.index t (0 : Fin 2) * 2000 + 2000; omega
  | ⟨1, _⟩ => show win0_2.index t (1 : Fin 2) * 16 ≤ (i 1).val ∧ (i 1).val < win0_2.index t (1 : Fin 2) * 16 + 16; omega

/-- After the run the output array is `out` of the two arrays the region reads. -/
theorem final (c : Dev nD) (x : S100000x500.Idx → EReal) (w : S500x16.Idx → EReal)
    (hx : V c main_arg0 = x) (hw : V c main_arg2 = w) :
    (dat0 (F := Ideal) V c).arrAt 2 cfg0.N = out x w :=
  (dat0 (F := Ideal) V c).arrAt_eq_of_cover 2 (out x w) (fun t _ => flushed_eq V c t x w hx hw) cover

end

/-! ## The reference's product is the same function -/

/-- The reference's whole-array product, index by index: `out`. -/
theorem ref_eq (x : (⟨Cert.ReferenceIdeal.S100000x500, .f32⟩ : BufTy).Contents (Elt Ideal))
    (w : (⟨Cert.ReferenceIdeal.S500x16, .f32⟩ : BufTy).Contents (Elt Ideal)) :
    Cert.ReferenceIdeal.ReadP.val_main_v30 (F := Ideal) x w = out x w :=
  funext fun i => Cert.RefSide.proj1_apply x w i

/-! ## The region's value -/

/-- After the region, its output array is the reference's first projection of the two arrays the region reads. -/
theorem value (V : (c : Dev nD) → (b : Ref sig .tc) → Buf (Elt Ideal) ((c : Thread nD τ).loc b)) (c : Dev nD)
    (x : (⟨Cert.ReferenceIdeal.S100000x500, .f32⟩ : BufTy).Contents (Elt Ideal))
    (w : (⟨Cert.ReferenceIdeal.S500x16, .f32⟩ : BufTy).Contents (Elt Ideal))
    (hx : V c main_arg0 = x) (hw : V c main_arg2 = w) :
    (dat0 (F := Ideal) V c).arrAt 2 cfg0.N = Cert.ReferenceIdeal.ReadP.val_main_v30 (F := Ideal) x w :=
  (final V c x w hx hw).trans (ref_eq x w).symm

end Cert.Region0

end
-- ==== Proof.Region1.lean ====
/-
  The bias-and-relu region: what its output array holds after the run.

  The region's grid has 50 points. At point t the pipeline stages rows 2000·t … 2000·t + 1999 of the aggregated array
  (all 16 columns) and the whole one-row bias; the body adds the bias row to every staged row and takes the maximum
  with zero; the result block is written back to the same rows of the output array. So entry (r, q) of the output is
  max(a(r, q) + b(q), 0), whichever block row r falls in, and the 50 blocks cover the 100000 rows. That is the
  reference's epilogue read at an index: its bias is broadcast from a one-row array to all rows, its zero from a
  scalar.
-/
import proofs.«138651_j89704686944356_1_alg».proof.Proof.Gen.KernelIdeal.Frame
import proofs.«138651_j89704686944356_1_alg».proof.Proof.RefSide
import Idealize.ShloMosaic.Lib.ValueLayout

set_option maxRecDepth 16384

noncomputable section

namespace Cert.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## One function for the whole array -/

/-- Entry (r, q) of the output: the aggregated entry plus the bias of column q, or zero if that is negative. -/
def out (a : S100000x16.Idx → EReal) (b : S16.Idx → EReal) : S100000x16.Idx → EReal :=
  fun i => max (a i + b (ix1 (i 1))) 0

theorem hz : (![0, 0] : Fin 2 → Nat) = fun _ => 0 := funext fun a => by fin_cases a <;> rfl

/-! ## The body at an index of its block -/

/-- The body's stored value at row p, column q of the block: the staged entry plus the staged bias row's entry of
    column q, or zero. -/
theorem payload_apply (x0 : Vec Ideal S2000x16 .f32) (x1 : Vec Ideal S1x16 .f32) (p : Fin 2000) (q : Fin 16) :
    k1_pay1 (F := Ideal) x0 x1 (ix2 p q) = max (x0 (ix2 p q) + x1 (ix2 (0 : Fin 1) q)) 0 := by
  unfold k1_pay1
  rw [maximumf_apply, addf_apply, shapeCast_self, shapeCast_self, broadcastTo_1b_ab_apply, broadcast_apply]
  exact congrArg (max _) Ideal.ofBits_zero_f32

/-! ## The index maps, decided over the grid -/

/-- At point t the aggregated array's window and the output's window are both at block row t, block column 0; the
    bias's window stays at its one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section

variable (V : (c : Dev nD) → (b : Ref sig .tc) → Buf (Elt Ideal) ((c : Thread nD τ).loc b))

/-! ## The staged blocks, over the arrays themselves -/

/-- The aggregated array's block at point t reads the array through the block's embedding. -/
theorem blk_a (c : Dev nD) (t : Fin cfg1.N) (a : S100000x16.Idx → EReal) (ha : V c main_v43 = a) :
    iblk1 V c 0 t = fun y => a (((cfg1.win 0).blk t).view.emb y) := by
  unfold iblk1
  rw [show V c (Pipeline.arrRef spec1 0) = a from ha]
  rfl

/-- The bias's block at point t reads its one-row form through the block's embedding. -/
theorem blk_b (c : Dev nD) (t : Fin cfg1.N) (b : S16.Idx → EReal)
    (hb : V c main_v44 = shapeCast S1x16 b shapeCasts_S16_S1x16) :
    iblk1 V c 1 t = fun y => shapeCast S1x16 b shapeCasts_S16_S1x16 (((cfg1.win 1).blk t).view.emb y) := by
  unfold iblk1
  rw [show V c (Pipeline.arrRef spec1 1) = shapeCast S1x16 b shapeCasts_S16_S1x16 from hb]
  rfl

/-! ## What a point writes back -/

/-- What point t writes back is block t of `out` of the two arrays as the region finds them. -/
theorem flushed_eq (c : Dev nD) (t : Fin cfg1.N) (a : S100000x16.Idx → EReal) (b : S16.Idx → EReal)
    (ha : V c main_v43 = a) (hb : V c main_v44 = shapeCast S1x16 b shapeCasts_S16_S1x16) :
    (dat1 (F := Ideal) V c).flushed 2 t = ((cfg1.win 2).blk t).view.read (Elt Ideal) (out a b) := by
  show (cfg1.win 2).cut (grid1.coords t) ((dat1 (F := Ideal) V c).after 2 t) = _
  rw [after1_2, blk_a V c t a ha, blk_b V c t b hb]
  unfold out1_2
  rw [View.canon_unit_zero hz]
  simp only [View.ld_unit_zero (S := S2000x16) hz, View.ld_unit_zero (S := S1x16) hz]
  obtain ⟨e0, e1, e2, e3, e4, e5⟩ := idx_facts t
  funext j
  obtain ⟨p, q, rfl⟩ : ∃ (p : Fin 2000) (q : Fin 16), j = ix2 p q := ⟨j 0, j 1, eq_ix2 j⟩
  refine (payload_apply (fun y => a (((cfg1.win 0).blk t).view.emb y))
    (fun y => shapeCast S1x16 b shapeCasts_S16_S1x16 (((cfg1.win 1).blk t).view.emb y)) p q).trans ?_
  show max (a (((cfg1.win 0).blk t).view.emb (ix2 p q))
        + shapeCast S1x16 b shapeCasts_S16_S1x16 (((cfg1.win 1).blk t).view.emb (ix2 (0 : Fin 1) q))) 0
    = max (a (((cfg1.win 2).blk t).view.emb (ix2 p q)) + b (ix1 ((((cfg1.win 2).blk t).view.emb (ix2 p q)) 1))) 0
  have h0 : ((cfg1.win 0).blk t).view.emb (ix2 p q) = ((cfg1.win 2).blk t).view.emb (ix2 p q) := by
    funext ax; apply Fin.ext
    match ax with
    | ⟨0, _⟩ => show win1_0.index t (0 : Fin 2) * 2000 + 1 * p.val = win1_2.index t (0 : Fin 2) * 2000 + 1 * p.val; omega
    | ⟨1, _⟩ => show win1_0.index t (1 : Fin 2) * 16 + 1 * q.val = win1_2.index t (1 : Fin 2) * 16 + 1 * q.val; omega
  have h1 : ((cfg1.win 1).blk t).view.emb (ix2 (0 : Fin 1) q) = ix2 (0 : Fin 1) q := by
    funext ax; apply Fin.ext
    match ax with
    | ⟨0, _⟩ => show win1_1.index t (0 : Fin 2) * 1 + 1 * 0 = 0; omega
    | ⟨1, _⟩ => show win1_1.index t (1 : Fin 2) * 16 + 1 * q.val = q.val; omega
  have h2 : (ix1 ((((cfg1.win 2).blk t).view.emb (ix2 p q)) 1) : S16.Idx) = ix1 q := by
    funext ax; apply Fin.ext
    match ax with
    | ⟨0, _⟩ => show win1_2.index t (1 : Fin 2) * 16 + 1 * q.val = q.val; omega
  rw [h0, h1, h2, shapeCast_a_1a_apply]

/-! ## The blocks cover the array -/

/-- An index of the array is in point t's block iff each coordinate is in the block's range on its axis. -/
theorem mem_blk (t : Fin cfg1.N) (i : S100000x16.Idx) :
    i ∈ ((cfg1.win 2).blk t).view.set ↔ ∀ ax : Fin 2, win1_2.index t ax * S2000x16.size ax ≤ (i ax).val ∧ (i ax).val < win1_2.index t ax * S2000x16.size ax + S2000x16.size ax := by
  show i ∈ ((View.whole main_v45).slice (win1_2.rect t)).set ↔ _
  rw [View.set_slice_whole, Rect.mem_set_unit]
  exact Iff.rfl

/-- Row r lies in the block of point r / 2000. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  let t : Fin cfg1.N := ⟨(i 0).val / 2000, by show (i 0).val / 2000 < 50; omega⟩
  obtain ⟨e0, e1, e2, e3, e4, e5⟩ := idx_facts t
  have ht : t.val = (i 0).val / 2000 := rfl
  refine ⟨t, flush1_2 t, ?_⟩
  rw [mem_blk]
  intro ax
  match ax with
  | ⟨0, _⟩ => show win1_2.index t (0 : Fin 2) * 2000 ≤ (i 0).val ∧ (i 0).val < win1_2.index t (0 : Fin 2) * 2000 + 2000; omega
  | ⟨1, _⟩ => show win1_2.index t (1 : Fin 2) * 16 ≤ (i 1).val ∧ (i 1).val < win1_2.index t (1 : Fin 2) * 16 + 16; omega

/-- After the run the output array is `out` of the two arrays the region reads. -/
theorem final (c : Dev nD) (a : S100000x16.Idx → EReal) (b : S16.Idx → EReal)
    (ha : V c main_v43 = a) (hb : V c main_v44 = shapeCast S1x16 b shapeCasts_S16_S1x16) :
    (dat1 (F := Ideal) V c).arrAt 2 cfg1.N = out a b :=
  (dat1 (F := Ideal) V c).arrAt_eq_of_cover 2 (out a b) (fun t _ => flushed_eq V c t a b ha hb) cover

end

/-! ## The reference's epilogue is the same function -/

/-- The reference adds the bias broadcast over the rows and takes the maximum with a broadcast zero: index by index,
    `out`. -/
theorem ref_eq (a : (⟨Cert.ReferenceIdeal.S100000x16, .f32⟩ : BufTy).Contents (Elt Ideal))
    (b : (⟨Cert.ReferenceIdeal.S16, .f32⟩ : BufTy).Contents (Elt Ideal)) :
    Cert.RefSide.biasRelu (F := Ideal) a b = out a b := by
  funext i
  obtain ⟨r, q, rfl⟩ : ∃ (r : Fin 100000) (q : Fin 16), i = ix2 r q := ⟨i 0, i 1, eq_ix2 i⟩
  exact Cert.RefSide.biasRelu_apply a b r q

/-! ## The region's value -/

/-- After the region, its output array is the reference's bias-and-relu of the aggregated array it reads and of the
    bias whose one-row form its second window holds. -/
theorem value (V : (c : Dev nD) → (b : Ref sig .tc) → Buf (Elt Ideal) ((c : Thread nD τ).loc b)) (c : Dev nD)
    (a : (⟨Cert.ReferenceIdeal.S100000x16, .f32⟩ : BufTy).Contents (Elt Ideal))
    (b : (⟨Cert.ReferenceIdeal.S16, .f32⟩ : BufTy).Contents (Elt Ideal))
    (ha : V c main_v43 = a) (hb : V c main_v44 = shapeCast S1x16 b shapeCasts_S16_S1x16) :
    (dat1 (F := Ideal) V c).arrAt 2 cfg1.N = Cert.RefSide.biasRelu (F := Ideal) a b :=
  (final V c a b ha hb).trans (ref_eq a b).symm

end Cert.Region1

end
-- ==== Proof.Region2.lean ====
/-
  The second projection region: what its output array holds after the run.

  The region's grid has 50 points. At point t the pipeline stages rows 2000·t … 2000·t + 1999 of the hidden layer
  (all 16 columns) and the whole 16 × 7 weight array; the body multiplies the two staged blocks, accumulating from
  zero; the result block is written back to the same rows of the output array. Over the extended reals a block product
  from zero at (p, q) is the sum over k of left(p, k) · right(k, q), so entry (r, q) of the output is the sum over the
  16 hidden units k of hidden(r, k) · weights(k, q), whichever block row r falls in, and the 50 blocks cover the 100000
  rows. The reference's whole-array product is the same sum. (The kernel casts the staged hidden block onto its own
  shape and narrows both blocks to bf16 first; over the extended reals neither changes a value.)
-/
import proofs.«138651_j89704686944356_1_alg».proof.Proof.Gen.KernelIdeal.Frame
import proofs.«138651_j89704686944356_1_alg».proof.Proof.RefSide

set_option maxRecDepth 16384

noncomputable section

namespace Cert.Region2

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## One function for the whole array -/

/-- Entry (r, q) of the output: row r of the hidden layer against column q of the weights. -/
def out (h : S100000x16.Idx → EReal) (w : S16x7.Idx → EReal) : S100000x7.Idx → EReal :=
  fun i => ∑ k : Fin 16, h (ix2 (i 0) k) * w (ix2 k (i 1))

theorem hz : (![0, 0] : Fin 2 → Nat) = fun _ => 0 := funext fun a => by fin_cases a <;> rfl

/-! ## The block product at an index -/

/-- The block product's dimension numbers: on its free axis the left operand's index reads the result's row. -/
theorem lhs_blk_0 (i : S2000x7.Idx) (q : dot_S2000x16_S16x7_S2000x7_1_0_0_1_n_n.contr.Idx) :
    (dot_S2000x16_S16x7_S2000x7_1_0_0_1_n_n.lhsIdx i q 0).val = (i 0).val := by
  unfold DotDims.lhsIdx
  rw [dif_neg (show ¬(0 : Fin S2000x16.rank) ∈ dot_S2000x16_S16x7_S2000x7_1_0_0_1_n_n.lhsBatch by decide), dif_pos (show (0 : Fin S2000x16.rank) ∈ dot_S2000x16_S16x7_S2000x7_1_0_0_1_n_n.lhsNonContracting by decide)]
  rfl
/-- On its contracted axis it reads the contraction's position. -/
theorem lhs_blk_1 (i : S2000x7.Idx) (q : dot_S2000x16_S16x7_S2000x7_1_0_0_1_n_n.contr.Idx) :
    (dot_S2000x16_S16x7_S2000x7_1_0_0_1_n_n.lhsIdx i q 1).val = (q ⟨0, by decide⟩).val :=
  dot_S2000x16_S16x7_S2000x7_1_0_0_1_n_n.lhsIdx_val_of_single rfl i q
/-- The right operand's index reads the position on its contracted axis. -/
theorem rhs_blk_0 (i : S2000x7.Idx) (q : dot_S2000x16_S16x7_S2000x7_1_0_0_1_n_n.contr.Idx) :
    (dot_S2000x16_S16x7_S2000x7_1_0_0_1_n_n.rhsIdx i q 0).val = (q ⟨0, by decide⟩).val :=
  dot_S2000x16_S16x7_S2000x7_1_0_0_1_n_n.rhsIdx_val_of_single rfl i q
/-- … and the result's column on its free axis. -/
theorem rhs_blk_1 (i : S2000x7.Idx) (q : dot_S2000x16_S16x7_S2000x7_1_0_0_1_n_n.contr.Idx) :
    (dot_S2000x16_S16x7_S2000x7_1_0_0_1_n_n.rhsIdx i q 1).val = (i 1).val := by
  unfold DotDims.rhsIdx
  rw [dif_neg (show ¬(1 : Fin S16x7.rank) ∈ dot_S2000x16_S16x7_S2000x7_1_0_0_1_n_n.rhsBatch by decide), dif_pos (show (1 : Fin S16x7.rank) ∈ dot_S2000x16_S16x7_S2000x7_1_0_0_1_n_n.rhsNonContracting by decide)]
  rfl

/-- The body's stored value is the product of the two staged blocks — the left cast onto its own shape —, narrowed,
    accumulated from zero. -/
theorem payload_eq (x0 : Vec Ideal S2000x16 .f32) (x1 : Vec Ideal S16x7 .f32) :
    k2_pay1 (F := Ideal) x0 x1
      = matmul dot_S2000x16_S16x7_S2000x7_1_0_0_1_n_n none
          (truncf .bf16 (shapeCast S2000x16 x0 shapeCasts_S2000x16_S2000x16) bitsLt_bf16_f32) (truncf .bf16 x1 bitsLt_bf16_f32)
          (constant S2000x7 .f32 0x00000000#32) := rfl

/-- At row p, column q of the block it is the sum over k of left(p, k) · right(k, q). -/
theorem payload_apply (x0 : Vec Ideal S2000x16 .f32) (x1 : Vec Ideal S16x7 .f32) (p : Fin 2000) (q : Fin 7) :
    k2_pay1 (F := Ideal) x0 x1 (ix2 p q) = ∑ k : Fin 16, x0 (ix2 p k) * x1 (ix2 k q) := by
  rw [payload_eq, shapeCast_self]
  simp only [matmul]
  rw [Ideal.matmul_constant_zero_apply, ← Equiv.sum_comp (ValueIdx.contrEquiv1 dot_S2000x16_S16x7_S2000x7_1_0_0_1_n_n 16 rfl rfl).symm]
  refine Finset.sum_congr rfl fun k _ => ?_
  have hk := ValueIdx.contrEquiv1_symm_val dot_S2000x16_S16x7_S2000x7_1_0_0_1_n_n 16 rfl rfl k
  have el : dot_S2000x16_S16x7_S2000x7_1_0_0_1_n_n.lhsIdx (ix2 p q) ((ValueIdx.contrEquiv1 dot_S2000x16_S16x7_S2000x7_1_0_0_1_n_n 16 rfl rfl).symm k) = ix2 p k := funext fun a => Fin.ext (by
    match a with
    | ⟨0, _⟩ => exact lhs_blk_0 _ _
    | ⟨1, _⟩ => exact (lhs_blk_1 _ _).trans hk)
  have er : dot_S2000x16_S16x7_S2000x7_1_0_0_1_n_n.rhsIdx (ix2 p q) ((ValueIdx.contrEquiv1 dot_S2000x16_S16x7_S2000x7_1_0_0_1_n_n 16 rfl rfl).symm k) = ix2 k q := funext fun a => Fin.ext (by
    match a with
    | ⟨0, _⟩ => exact (rhs_blk_0 _ _).trans hk
    | ⟨1, _⟩ => exact rhs_blk_1 _ _)
  rw [el, er]
  rfl

/-! ## The index maps, decided over the grid -/

/-- At point t the hidden layer's window and the output's window are both at block row t, block column 0; the
    weights' window stays at its one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section

variable (V : (c : Dev nD) → (b : Ref sig .tc) → Buf (Elt Ideal) ((c : Thread nD τ).loc b))

/-! ## The staged blocks, over the arrays themselves -/

/-- The hidden layer's block at point t reads the array through the block's embedding. -/
theorem blk_h (c : Dev nD) (t : Fin cfg2.N) (h : S100000x16.Idx → EReal) (hh : V c main_v45 = h) :
    iblk2 V c 0 t = fun y => h (((cfg2.win 0).blk t).view.emb y) := by
  unfold iblk2
  rw [show V c (Pipeline.arrRef spec2 0) = h from hh]
  rfl

/-- The weights' block at point t reads the array through the block's embedding. -/
theorem blk_w (c : Dev nD) (t : Fin cfg2.N) (w : S16x7.Idx → EReal) (hw : V c main_arg4 = w) :
    iblk2 V c 1 t = fun y => w (((cfg2.win 1).blk t).view.emb y) := by
  unfold iblk2
  rw [show V c (Pipeline.arrRef spec2 1) = w from hw]
  rfl

/-! ## What a point writes back -/

/-- What point t writes back is block t of `out` of the two arrays as the region finds them. -/
theorem flushed_eq (c : Dev nD) (t : Fin cfg2.N) (h : S100000x16.Idx → EReal) (w : S16x7.Idx → EReal)
    (hh : V c main_v45 = h) (hw : V c main_arg4 = w) :
    (dat2 (F := Ideal) V c).flushed 2 t = ((cfg2.win 2).blk t).view.read (Elt Ideal) (out h w) := by
  show (cfg2.win 2).cut (grid2.coords t) ((dat2 (F := Ideal) V c).after 2 t) = _
  rw [after2_2, blk_h V c t h hh, blk_w V c t w hw]
  unfold out2_2
  rw [View.canon_unit_zero hz]
  simp only [View.ld_unit_zero (S := S2000x16) hz, View.ld_unit_zero (S := S16x7) hz]
  obtain ⟨e0, e1, e2, e3, e4, e5⟩ := idx_facts t
  funext j
  obtain ⟨p, q, rfl⟩ : ∃ (p : Fin 2000) (q : Fin 7), j = ix2 p q := ⟨j 0, j 1, eq_ix2 j⟩
  refine (payload_apply (fun y => h (((cfg2.win 0).blk t).view.emb y)) (fun y => w (((cfg2.win 1).blk t).view.emb y)) p q).trans ?_
  show ∑ k : Fin 16, h (((cfg2.win 0).blk t).view.emb (ix2 p k)) * w (((cfg2.win 1).blk t).view.emb (ix2 k q))
    = ∑ k : Fin 16, h (ix2 ((((cfg2.win 2).blk t).view.emb (ix2 p q)) 0) k) * w (ix2 k ((((cfg2.win 2).blk t).view.emb (ix2 p q)) 1))
  refine Finset.sum_congr rfl fun k _ => ?_
  have h0 : ((cfg2.win 0).blk t).view.emb (ix2 p k) = ix2 ((((cfg2.win 2).blk t).view.emb (ix2 p q)) 0) k := by
    funext ax; apply Fin.ext
    match ax with
    | ⟨0, _⟩ => show win2_0.index t (0 : Fin 2) * 2000 + 1 * p.val = win2_2.index t (0 : Fin 2) * 2000 + 1 * p.val; omega
    | ⟨1, _⟩ => show win2_0.index t (1 : Fin 2) * 16 + 1 * k.val = k.val; omega
  have h1 : ((cfg2.win 1).blk t).view.emb (ix2 k q) = ix2 k ((((cfg2.win 2).blk t).view.emb (ix2 p q)) 1) := by
    funext ax; apply Fin.ext
    match ax with
    | ⟨0, _⟩ => show win2_1.index t (0 : Fin 2) * 16 + 1 * k.val = k.val; omega
    | ⟨1, _⟩ => show win2_1.index t (1 : Fin 2) * 7 + 1 * q.val = win2_2.index t (1 : Fin 2) * 7 + 1 * q.val; omega
  rw [h0, h1]
  rfl

/-! ## The blocks cover the array -/

/-- An index of the array is in point t's block iff each coordinate is in the block's range on its axis. -/
theorem mem_blk (t : Fin cfg2.N) (i : S100000x7.Idx) :
    i ∈ ((cfg2.win 2).blk t).view.set ↔ ∀ ax : Fin 2, win2_2.index t ax * S2000x7.size ax ≤ (i ax).val ∧ (i ax).val < win2_2.index t ax * S2000x7.size ax + S2000x7.size ax := by
  show i ∈ ((View.whole main_v46).slice (win2_2.rect t)).set ↔ _
  rw [View.set_slice_whole, Rect.mem_set_unit]
  exact Iff.rfl

/-- Row r lies in the block of point r / 2000. -/
theorem cover (i : S100000x7.Idx) : ∃ t : Fin cfg2.N, (cfg2.win 2).flush t = true ∧ i ∈ ((cfg2.win 2).blk t).view.set := by
  have hi0 : (i 0).val < 100000 := (i 0).isLt
  have hi1 : (i 1).val < 7 := (i 1).isLt
  let t : Fin cfg2.N := ⟨(i 0).val / 2000, by show (i 0).val / 2000 < 50; omega⟩
  obtain ⟨e0, e1, e2, e3, e4, e5⟩ := idx_facts t
  have ht : t.val = (i 0).val / 2000 := rfl
  refine ⟨t, flush2_2 t, ?_⟩
  rw [mem_blk]
  intro ax
  match ax with
  | ⟨0, _⟩ => show win2_2.index t (0 : Fin 2) * 2000 ≤ (i 0).val ∧ (i 0).val < win2_2.index t (0 : Fin 2) * 2000 + 2000; omega
  | ⟨1, _⟩ => show win2_2.index t (1 : Fin 2) * 7 ≤ (i 1).val ∧ (i 1).val < win2_2.index t (1 : Fin 2) * 7 + 7; omega

/-- After the run the output array is `out` of the two arrays the region reads. -/
theorem final (c : Dev nD) (h : S100000x16.Idx → EReal) (w : S16x7.Idx → EReal)
    (hh : V c main_v45 = h) (hw : V c main_arg4 = w) :
    (dat2 (F := Ideal) V c).arrAt 2 cfg2.N = out h w :=
  (dat2 (F := Ideal) V c).arrAt_eq_of_cover 2 (out h w) (fun t _ => flushed_eq V c t h w hh hw) cover

end

/-! ## The reference's product is the same function -/

/-- The reference's whole-array product, index by index: `out`. -/
theorem ref_eq (h : (⟨Cert.ReferenceIdeal.S100000x16, .f32⟩ : BufTy).Contents (Elt Ideal))
    (w : (⟨Cert.ReferenceIdeal.S16x7, .f32⟩ : BufTy).Contents (Elt Ideal)) :
    Cert.RefSide.proj2 (F := Ideal) h w = out h w :=
  funext fun i => Cert.RefSide.proj2_apply h w i

/-! ## The region's value -/

/-- After the region, its output array is the reference's second projection of the two arrays the region reads. -/
theorem value (V : (c : Dev nD) → (b : Ref sig .tc) → Buf (Elt Ideal) ((c : Thread nD τ).loc b)) (c : Dev nD)
    (h : (⟨Cert.ReferenceIdeal.S100000x16, .f32⟩ : BufTy).Contents (Elt Ideal))
    (w : (⟨Cert.ReferenceIdeal.S16x7, .f32⟩ : BufTy).Contents (Elt Ideal))
    (hh : V c main_v45 = h) (hw : V c main_arg4 = w) :
    (dat2 (F := Ideal) V c).arrAt 2 cfg2.N = Cert.RefSide.proj2 (F := Ideal) h w :=
  (final V c h w hh hw).trans (ref_eq h w).symm

end Cert.Region2

end
-- ==== Proof.LibColumn.lean ====
/-
  A trailing unit axis: a vector laid out as a column, and a column spread over many columns, read at an index.

  An array of extent `a` cast to `[a, 1]` holds at `(i, u)` what the array held at `i`: the two shapes count their
  entries in the same row-major order and `u` can only be `0`. A column `[a, 1]` broadcast to `[a, b]` holds at `(p, c)`
  what the column held in row `p`: the unit axis is the one repeated.
-/
import Idealize.ShloMosaic.Lib.Pipeline.Value
import Idealize.ShloMosaic.Lib.ValueIdx

noncomputable section

namespace Cert.Lib.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column

end
-- ==== Proof.Region3.lean ====
/-
  The bias-and-log_softmax region: what its output array holds after the run.

  The region's grid has 50 points. At point t the pipeline stages rows 2000·t … 2000·t + 1999 of the aggregated array
  (all 7 columns) and the whole one-row bias. For each staged row the body forms the seven logits (entry plus bias),
  takes their maximum from -inf, subtracts it, sums the exponentials from zero, and stores the shifted logit less the
  logarithm of that sum; the maximum and the sum travel as columns (a cast to one column, a broadcast over the seven).
  The result block is written back to the same rows. So entry (r, q) of the output is log_softmax of row r's logits at
  class q, whichever block row r falls in, and the 50 blocks cover the 100000 rows. The reference computes the same,
  with one more maximum against -inf (which changes nothing) and its sum begun at zero.
-/
import proofs.«138651_j89704686944356_1_alg».proof.Proof.Gen.KernelIdeal.Frame
import proofs.«138651_j89704686944356_1_alg».proof.Proof.RefSide
import proofs.«138651_j89704686944356_1_alg».proof.Proof.LibColumn
import Idealize.ShloMosaic.Lib.ValueLayout

set_option maxRecDepth 16384

noncomputable section

namespace Cert.Region3

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.RefSide (rowMax rowLogSoftmax)
open Cert.Lib.Column

/-! ## One function for the whole array -/

/-- Entry (r, q) of the output: log_softmax of row r's logits (aggregated entry plus bias) at class q. -/
def out (a : S100000x7.Idx → EReal) (b : S7.Idx → EReal) : S100000x7.Idx → EReal :=
  fun i => rowLogSoftmax (fun k : Fin 7 => a (ix2 (i 0) k) + b (ix1 k)) (i 1)

theorem hz : (![0, 0] : Fin 2 → Nat) = fun _ => 0 := funext fun a => by fin_cases a <;> rfl

/-! ## The body, piece by piece -/

/-- The block's logits. -/
def lg (x0 : Vec Ideal S2000x7 .f32) (x1 : Vec Ideal S1x7 .f32) : FVec Ideal S2000x7 .f32 :=
  addf (shapeCast S2000x7 x0 shapeCasts_S2000x7_S2000x7) (broadcastTo S2000x7 (shapeCast S1x7 x1 shapeCasts_S1x7_S1x7) broadcasts_S1x7_S2000x7)

/-- Each row's maximum. -/
def mx (x0 : Vec Ideal S2000x7 .f32) (x1 : Vec Ideal S1x7 .f32) : FVec Ideal S2000 .f32 :=
  multiReduction .maximumf [1] S2000 (lg x0 x1) 0xFF800000#32 reduces_S2000x7_S2000 (.inl rfl) rfl

/-- The logits less their row's maximum. -/
def sh (x0 : Vec Ideal S2000x7 .f32) (x1 : Vec Ideal S1x7 .f32) : FVec Ideal S2000x7 .f32 :=
  subf (lg x0 x1) (broadcastTo S2000x7 (shapeCast S2000x1 (mx x0 x1) shapeCasts_S2000_S2000x1) broadcasts_S2000x1_S2000x7)

/-- Each row's sum of exponentials. -/
def sm (x0 : Vec Ideal S2000x7 .f32) (x1 : Vec Ideal S1x7 .f32) : FVec Ideal S2000 .f32 :=
  multiReduction .add [1] S2000 (exp (sh x0 x1)) 0x00000000#32 reduces_S2000x7_S2000 (.inl rfl) rfl

/-- The body's stored value, in those pieces. -/
theorem payload_eq (x0 : Vec Ideal S2000x7 .f32) (x1 : Vec Ideal S1x7 .f32) :
    k3_pay1 (F := Ideal) x0 x1
      = subf (sh x0 x1) (broadcastTo S2000x7 (log (shapeCast S2000x1 (sm x0 x1) shapeCasts_S2000_S2000x1)) broadcasts_S2000x1_S2000x7) := rfl

/-- The logit at row p, class k of the block. -/
theorem lg_apply (x0 : Vec Ideal S2000x7 .f32) (x1 : Vec Ideal S1x7 .f32) (p : Fin 2000) (k : Fin 7) :
    lg x0 x1 (ix2 p k) = x0 (ix2 p k) + x1 (ix2 (0 : Fin 1) k) := by
  unfold lg
  rw [addf_apply, shapeCast_self, shapeCast_self, broadcastTo_1b_ab_apply]

/-- Row p's maximum is the maximum of its seven logits, from -inf. -/
theorem mx_apply (x0 : Vec Ideal S2000x7 .f32) (x1 : Vec Ideal S1x7 .f32) (p : Fin 2000) :
    mx x0 x1 (ix1 p) = rowMax (fun k : Fin 7 => x0 (ix2 p k) + x1 (ix2 (0 : Fin 1) k)) := by
  refine (Ideal.multiReduction_maximumf_single (lg x0 x1) 0xFF800000#32 reduces_S2000x7_S2000 (.inl rfl) rfl (ix1 p)).trans ?_
  have hf : (lg x0 x1 ∘ reduces_S2000x7_S2000.lift (ix1 p)) = fun k : Fin 7 => x0 (ix2 p k) + x1 (ix2 (0 : Fin 1) k) :=
    funext fun (k : Fin 7) => by
      show lg x0 x1 (reduces_S2000x7_S2000.lift (ix1 p) k) = _
      rw [show reduces_S2000x7_S2000.lift (ix1 p) k = ix2 p k from funext fun ax => Fin.ext (by
        match ax with
        | ⟨0, _⟩ => rfl
        | ⟨1, _⟩ => rfl)]
      exact lg_apply x0 x1 p k
  rw [hf]
  rfl

/-- The shifted logit at row p, class k. -/
theorem sh_apply (x0 : Vec Ideal S2000x7 .f32) (x1 : Vec Ideal S1x7 .f32) (p : Fin 2000) (k : Fin 7) :
    sh x0 x1 (ix2 p k)
      = (x0 (ix2 p k) + x1 (ix2 (0 : Fin 1) k)) - rowMax (fun k' : Fin 7 => x0 (ix2 p k') + x1 (ix2 (0 : Fin 1) k')) := by
  unfold sh
  rw [subf_apply, lg_apply, broadcastTo_a1_ab_apply, shapeCast_a_a1_apply, mx_apply]

/-- Row p's sum of the exponentials of its shifted logits. -/
theorem sm_apply (x0 : Vec Ideal S2000x7 .f32) (x1 : Vec Ideal S1x7 .f32) (p : Fin 2000) :
    sm x0 x1 (ix1 p)
      = ∑ k : Fin 7, Ideal.exp ((x0 (ix2 p k) + x1 (ix2 (0 : Fin 1) k)) - rowMax (fun k' : Fin 7 => x0 (ix2 p k') + x1 (ix2 (0 : Fin 1) k'))) := by
  refine (Ideal.multiReduction_add_single (exp (sh x0 x1)) 0x00000000#32 reduces_S2000x7_S2000 (.inl rfl) rfl (ix1 p)).trans ?_
  refine Finset.sum_congr rfl fun (k : Fin 7) _ => ?_
  show Ideal.exp (sh x0 x1 (reduces_S2000x7_S2000.lift (ix1 p) k)) = _
  rw [show reduces_S2000x7_S2000.lift (ix1 p) k = ix2 p k from funext fun ax => Fin.ext (by
    match ax with
    | ⟨0, _⟩ => rfl
    | ⟨1, _⟩ => rfl), sh_apply]

/-- The body's stored value at row p, class q of the block: log_softmax of the row's logits at q. -/
theorem payload_apply (x0 : Vec Ideal S2000x7 .f32) (x1 : Vec Ideal S1x7 .f32) (p : Fin 2000) (q : Fin 7) :
    k3_pay1 (F := Ideal) x0 x1 (ix2 p q) = rowLogSoftmax (fun k : Fin 7 => x0 (ix2 p k) + x1 (ix2 (0 : Fin 1) k)) q := by
  rw [payload_eq, subf_apply, sh_apply, broadcastTo_a1_ab_apply]
  show _ - Ideal.log (shapeCast S2000x1 (sm x0 x1) shapeCasts_S2000_S2000x1 (ix2 p (0 : Fin 1))) = _
  rw [shapeCast_a_a1_apply, sm_apply]
  rfl

/-! ## The index maps, decided over the grid -/

/-- At point t the aggregated array's window and the output's window are both at block row t, block column 0; the
    bias's window stays at its one block. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

section

variable (V : (c : Dev nD) → (b : Ref sig .tc) → Buf (Elt Ideal) ((c : Thread nD τ).loc b))

/-! ## The staged blocks, over the arrays themselves -/

/-- The aggregated array's block at point t reads the array through the block's embedding. -/
theorem blk_a (c : Dev nD) (t : Fin cfg3.N) (a : S100000x7.Idx → EReal) (ha : V c main_v59 = a) :
    iblk3 V c 0 t = fun y => a (((cfg3.win 0).blk t).view.emb y) := by
  unfold iblk3
  rw [show V c (Pipeline.arrRef spec3 0) = a from ha]
  rfl

/-- The bias's block at point t reads its one-row form through the block's embedding. -/
theorem blk_b (c : Dev nD) (t : Fin cfg3.N) (b : S7.Idx → EReal)
    (hb : V c main_v60 = shapeCast S1x7 b shapeCasts_S7_S1x7) :
    iblk3 V c 1 t = fun y => shapeCast S1x7 b shapeCasts_S7_S1x7 (((cfg3.win 1).blk t).view.emb y) := by
  unfold iblk3
  rw [show V c (Pipeline.arrRef spec3 1) = shapeCast S1x7 b shapeCasts_S7_S1x7 from hb]
  rfl

/-! ## What a point writes back -/

/-- What point t writes back is block t of `out` of the two arrays as the region finds them. -/
theorem flushed_eq (c : Dev nD) (t : Fin cfg3.N) (a : S100000x7.Idx → EReal) (b : S7.Idx → EReal)
    (ha : V c main_v59 = a) (hb : V c main_v60 = shapeCast S1x7 b shapeCasts_S7_S1x7) :
    (dat3 (F := Ideal) V c).flushed 2 t = ((cfg3.win 2).blk t).view.read (Elt Ideal) (out a b) := by
  show (cfg3.win 2).cut (grid3.coords t) ((dat3 (F := Ideal) V c).after 2 t) = _
  rw [after3_2, blk_a V c t a ha, blk_b V c t b hb]
  unfold out3_2
  rw [View.canon_unit_zero hz]
  simp only [View.ld_unit_zero (S := S2000x7) hz, View.ld_unit_zero (S := S1x7) hz]
  obtain ⟨e0, e1, e2, e3, e4, e5⟩ := idx_facts t
  funext j
  obtain ⟨p, q, rfl⟩ : ∃ (p : Fin 2000) (q : Fin 7), j = ix2 p q := ⟨j 0, j 1, eq_ix2 j⟩
  refine (payload_apply (fun y => a (((cfg3.win 0).blk t).view.emb y))
    (fun y => shapeCast S1x7 b shapeCasts_S7_S1x7 (((cfg3.win 1).blk t).view.emb y)) p q).trans ?_
  show rowLogSoftmax (fun k : Fin 7 => a (((cfg3.win 0).blk t).view.emb (ix2 p k))
        + shapeCast S1x7 b shapeCasts_S7_S1x7 (((cfg3.win 1).blk t).view.emb (ix2 (0 : Fin 1) k))) q
    = rowLogSoftmax (fun k : Fin 7 => a (ix2 ((((cfg3.win 2).blk t).view.emb (ix2 p q)) 0) k) + b (ix1 k))
        ((((cfg3.win 2).blk t).view.emb (ix2 p q)) 1)
  have h0 : ∀ k : Fin 7, ((cfg3.win 0).blk t).view.emb (ix2 p k) = ix2 ((((cfg3.win 2).blk t).view.emb (ix2 p q)) 0) k := fun k => by
    funext ax; apply Fin.ext
    match ax with
    | ⟨0, _⟩ => show win3_0.index t (0 : Fin 2) * 2000 + 1 * p.val = win3_2.index t (0 : Fin 2) * 2000 + 1 * p.val; omega
    | ⟨1, _⟩ => show win3_0.index t (1 : Fin 2) * 7 + 1 * k.val = k.val; omega
  have h1 : ∀ k : Fin 7, ((cfg3.win 1).blk t).view.emb (ix2 (0 : Fin 1) k) = ix2 (0 : Fin 1) k := fun k => by
    funext ax; apply Fin.ext
    match ax with
    | ⟨0, _⟩ => show win3_1.index t (0 : Fin 2) * 1 + 1 * 0 = 0; omega
    | ⟨1, _⟩ => show win3_1.index t (1 : Fin 2) * 7 + 1 * k.val = k.val; omega
  have hq : ((((cfg3.win 2).blk t).view.emb (ix2 p q)) 1 : Fin 7) = q :=
    Fin.ext (by show win3_2.index t (1 : Fin 2) * 7 + 1 * q.val = q.val; omega)
  have hL : (fun k : Fin 7 => a (((cfg3.win 0).blk t).view.emb (ix2 p k))
        + shapeCast S1x7 b shapeCasts_S7_S1x7 (((cfg3.win 1).blk t).view.emb (ix2 (0 : Fin 1) k)))
      = fun k : Fin 7 => a (ix2 ((((cfg3.win 2).blk t).view.emb (ix2 p q)) 0) k) + b (ix1 k) :=
    funext fun k => by rw [h0 k, h1 k, shapeCast_a_1a_apply]; rfl
  rw [hL, hq]

/-! ## The blocks cover the array -/

/-- An index of the array is in point t's block iff each coordinate is in the block's range on its axis. -/
theorem mem_blk (t : Fin cfg3.N) (i : S100000x7.Idx) :
    i ∈ ((cfg3.win 2).blk t).view.set ↔ ∀ ax : Fin 2, win3_2.index t ax * S2000x7.size ax ≤ (i ax).val ∧ (i ax).val < win3_2.index t ax * S2000x7.size ax + S2000x7.size ax := by
  show i ∈ ((View.whole main_v61).slice (win3_2.rect t)).set ↔ _
  rw [View.set_slice_whole, Rect.mem_set_unit]
  exact Iff.rfl

/-- Row r lies in the block of point r / 2000. -/
theorem cover (i : S100000x7.Idx) : ∃ t : Fin cfg3.N, (cfg3.win 2).flush t = true ∧ i ∈ ((cfg3.win 2).blk t).view.set := by
  have hi0 : (i 0).val < 100000 := (i 0).isLt
  have hi1 : (i 1).val < 7 := (i 1).isLt
  let t : Fin cfg3.N := ⟨(i 0).val / 2000, by show (i 0).val / 2000 < 50; omega⟩
  obtain ⟨e0, e1, e2, e3, e4, e5⟩ := idx_facts t
  have ht : t.val = (i 0).val / 2000 := rfl
  refine ⟨t, flush3_2 t, ?_⟩
  rw [mem_blk]
  intro ax
  match ax with
  | ⟨0, _⟩ => show win3_2.index t (0 : Fin 2) * 2000 ≤ (i 0).val ∧ (i 0).val < win3_2.index t (0 : Fin 2) * 2000 + 2000; omega
  | ⟨1, _⟩ => show win3_2.index t (1 : Fin 2) * 7 ≤ (i 1).val ∧ (i 1).val < win3_2.index t (1 : Fin 2) * 7 + 7; omega

/-- After the run the output array is `out` of the two arrays the region reads. -/
theorem final (c : Dev nD) (a : S100000x7.Idx → EReal) (b : S7.Idx → EReal)
    (ha : V c main_v59 = a) (hb : V c main_v60 = shapeCast S1x7 b shapeCasts_S7_S1x7) :
    (dat3 (F := Ideal) V c).arrAt 2 cfg3.N = out a b :=
  (dat3 (F := Ideal) V c).arrAt_eq_of_cover 2 (out a b) (fun t _ => flushed_eq V c t a b ha hb) cover

end

/-! ## The reference's epilogue is the same function -/

/-- The reference's log_softmax of the biased aggregation, index by index: `out`. -/
theorem ref_eq (a : (⟨Cert.ReferenceIdeal.S100000x7, .f32⟩ : BufTy).Contents (Elt Ideal))
    (b : (⟨Cert.ReferenceIdeal.S7, .f32⟩ : BufTy).Contents (Elt Ideal)) :
    Cert.RefSide.logSoftmax (F := Ideal) a b = out a b := by
  funext i
  obtain ⟨r, q, rfl⟩ : ∃ (r : Fin 100000) (q : Fin 7), i = ix2 r q := ⟨i 0, i 1, eq_ix2 i⟩
  exact Cert.RefSide.logSoftmax_apply a b r q

/-! ## The region's value -/

/-- After the region, its output array is the reference's log_softmax of the aggregated array it reads plus the bias
    whose one-row form its second window holds. -/
theorem value (V : (c : Dev nD) → (b : Ref sig .tc) → Buf (Elt Ideal) ((c : Thread nD τ).loc b)) (c : Dev nD)
    (a : (⟨Cert.ReferenceIdeal.S100000x7, .f32⟩ : BufTy).Contents (Elt Ideal))
    (b : (⟨Cert.ReferenceIdeal.S7, .f32⟩ : BufTy).Contents (Elt Ideal))
    (ha : V c main_v59 = a) (hb : V c main_v60 = shapeCast S1x7 b shapeCasts_S7_S1x7) :
    (dat3 (F := Ideal) V c).arrAt 2 cfg3.N = Cert.RefSide.logSoftmax (F := Ideal) a b :=
  (final V c a b ha hb).trans (ref_eq a b).symm

end Cert.Region3

end
-- ==== Proof.Fold.lean ====
/-
  The kernel program's result, read back through its run.

  The idealized kernel's @main is five stretches of host operations around four kernel regions. Its frame names the
  buffer contents at each of the nine segment boundaries as a fold from the launch memory (`W0` … `W9`): a host stretch
  applies its operations, a region leaves each of its output arrays at what its blocks wrote back and every other
  buffer as it found it. The result array is the last region's output, so its contents are `W9` at that buffer.

  Here the fold is walked forwards, one boundary at a time, and at each boundary the buffers that matter are shown to
  hold the value the reference program computes at the same place (the stages of its read-back run):

    * after the first three stretches: the edge lists with the self-loops appended (sources and destinations) and
      the symmetric normalisation coefficient of every edge. The two programs compute these by the same
      operations on the same argument, so nothing of them is opened: the operations' composed terms coincide.
    * after region 0: the first projection `x · W1`.
    * after the next stretch: the first aggregation — the gather at the sources, scaled by the coefficients, summed into
      the destinations. Again the same operations on both sides, applied to values already shown equal.
    * after regions 1 and 2: the hidden layer `max(aggregation + b1, 0)`, then its projection by `W2`.
    * after the last stretch: the second aggregation; after region 3: `log_softmax(aggregation + b2)`, the result.

  What a region leaves in its output array is the matter of the four region modules; that a buffer is untouched by a
  stretch or a region is read off the operations' result buffers.
-/
import proofs.«138651_j89704686944356_1_alg».proof.Proof.Gen.KernelIdeal.Frame
import proofs.«138651_j89704686944356_1_alg».proof.Proof.RefSide
import proofs.«138651_j89704686944356_1_alg».proof.Proof.Region0
import proofs.«138651_j89704686944356_1_alg».proof.Proof.Region1
import proofs.«138651_j89704686944356_1_alg».proof.Proof.Region2
import proofs.«138651_j89704686944356_1_alg».proof.Proof.Region3

set_option maxRecDepth 16384

noncomputable section

namespace Cert.Fold

open Cert.KernelIdeal Cert.KernelIdeal.Gen
open Idealize.ShloMosaic Idealize.ShloMosaic.TcCoe Idealize.SL.Sem
open Idealize.ShloMosaic.StableHlo (after TRef)
open Cert.ReferenceIdeal.ReadP

/-- A buffer that no operation of a host stretch writes holds after the stretch what it held before. -/
macro "unwritten" : tactic => `(tactic| (
  refine StableHlo.after_of_forall_not_mem _ _ (List.forall_iff_forall_mem.mp ?_)
  simp only [hostOps0, hostOps0_1, hostOps0_2, hostOps1, hostOps3, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ## The host stretches, from any contents -/

section Stretches

variable {F : FTy → Type} [FloatOps F] (W : Valuation τ sig (Elt F))

/-- The first stretch leaves the source list: the edge array's first row with the node numbers appended. -/
theorem stretch0_src :
    after (hostOps0 (F := F)) W (Proc.devRef .tc main_v3) = val_main_v3 (F := F) (W (Proc.devRef .tc main_arg1)) := by
  after_results
  unfold val_main_v3 val_main_v2 val_main_v1 val_main_v0
  rfl

/-- … and the destination list: the second row with the node numbers appended. -/
theorem stretch0_dst :
    after (hostOps0 (F := F)) W (Proc.devRef .tc main_v6) = val_main_v6 (F := F) (W (Proc.devRef .tc main_arg1)) := by
  after_results
  unfold val_main_v6 val_main_v5 val_main_v4 val_main_v0
  rfl

/-- … and whether each node's degree (the count of edges into it, self-loop included) is positive. -/
theorem stretch0_degpos :
    after (hostOps0 (F := F)) W (Proc.devRef .tc main_v12) = val_main_v12 (F := F) (W (Proc.devRef .tc main_arg1)) := by
  after_results
  unfold val_main_v12 val_main_v11 val_main_cst_1 val_main_v10 val_main_v9 val_main_v8 val_main_cst_0 val_main_v7 val_main_cst
    val_main_v6 val_main_v5 val_main_v4 val_main_v0
  rfl

/-- … and the reciprocal square root of each node's degree. -/
theorem stretch0_rsqrt :
    after (hostOps0 (F := F)) W (Proc.devRef .tc main_v13) = val_main_v13 (F := F) (W (Proc.devRef .tc main_arg1)) := by
  after_results
  unfold val_main_v13 val_main_v10 val_main_v9 val_main_v8 val_main_cst_0 val_main_v7 val_main_cst
    val_main_v6 val_main_v5 val_main_v4 val_main_v0
  rfl

/-- … and the zero that replaces it where the degree is not positive. -/
theorem stretch0_zero :
    after (hostOps0 (F := F)) W (Proc.devRef .tc main_cst_2) = val_main_cst_2 (F := F) := by
  after_results
  unfold val_main_cst_2
  rfl

/-- The second stretch selects between the two: each node's normalising factor. -/
theorem stretch1_dinv (x1 : (⟨Cert.ReferenceIdeal.S2x3200000, .i32⟩ : BufTy).Contents (Elt F))
    (h12 : W (Proc.devRef .tc main_v12) = val_main_v12 (F := F) x1)
    (h13 : W (Proc.devRef .tc main_v13) = val_main_v13 (F := F) x1)
    (hc : W (Proc.devRef .tc main_cst_2) = val_main_cst_2 (F := F)) :
    after (hostOps0_1 (F := F)) W (Proc.devRef .tc main_v14) = val_main_v14 (F := F) x1 := by
  after_results
  simp only [TRef.ofBuf, TRef.toBuf, cast_eq]
  rw [h12, h13, hc]
  unfold val_main_v14 val_main_call0_v1 val_main_call0_v0
  rfl

/-- The third stretch gathers the factor at each edge's two ends and multiplies: the edge's coefficient. -/
theorem stretch2_norm (x1 : (⟨Cert.ReferenceIdeal.S2x3200000, .i32⟩ : BufTy).Contents (Elt F))
    (h3 : W (Proc.devRef .tc main_v3) = val_main_v3 (F := F) x1)
    (h6 : W (Proc.devRef .tc main_v6) = val_main_v6 (F := F) x1)
    (h14 : W (Proc.devRef .tc main_v14) = val_main_v14 (F := F) x1) :
    after (hostOps0_2 (F := F)) W (Proc.devRef .tc main_v29) = val_main_v29 (F := F) x1 := by
  after_results_simp
  rw [h3, h6, h14]
  unfold val_main_v29 val_main_v28 val_main_v27 val_main_v26 val_main_v25 val_main_v24 val_main_c_5 val_main_v23 val_main_v22 val_main_c_4
    val_main_v21 val_main_v20 val_main_v19 val_main_v18 val_main_v17 val_main_c_3 val_main_v16 val_main_v15 val_main_c
  rfl

/-- The stretch after region 0 aggregates the first projection over the edges. -/
theorem stretch3_agg (x0 : (⟨Cert.ReferenceIdeal.S100000x500, .f32⟩ : BufTy).Contents (Elt F))
    (x1 : (⟨Cert.ReferenceIdeal.S2x3200000, .i32⟩ : BufTy).Contents (Elt F))
    (x2 : (⟨Cert.ReferenceIdeal.S500x16, .f32⟩ : BufTy).Contents (Elt F))
    (h30 : W (Proc.devRef .tc main_v30) = val_main_v30 (F := F) x0 x2)
    (h3 : W (Proc.devRef .tc main_v3) = val_main_v3 (F := F) x1)
    (h6 : W (Proc.devRef .tc main_v6) = val_main_v6 (F := F) x1)
    (h29 : W (Proc.devRef .tc main_v29) = val_main_v29 (F := F) x1) :
    after (hostOps1 (F := F)) W (Proc.devRef .tc main_v43) = val_main_v43 (F := F) x0 x1 x2 := by
  after_results_simp
  rw [h30, h3, h6, h29]
  unfold val_main_v43 val_main_v42 val_main_v41 val_main_cst_8 val_main_v40 val_main_v39 val_main_v38 val_main_v37 val_main_v36
    val_main_v35 val_main_v34 val_main_v33 val_main_c_7 val_main_v32 val_main_v31 val_main_c_6
  rfl

/-- … and lays the first bias out as one row. -/
theorem stretch3_bias :
    after (hostOps1 (F := F)) W (Proc.devRef .tc main_v44)
      = shapeCast S1x16 (W (Proc.devRef .tc main_arg3)) shapeCasts_S16_S1x16 := by
  after_results
  rfl

/-- The stretch after region 2 aggregates the second projection over the edges. -/
theorem stretch4_agg (x0 : (⟨Cert.ReferenceIdeal.S100000x500, .f32⟩ : BufTy).Contents (Elt F))
    (x1 : (⟨Cert.ReferenceIdeal.S2x3200000, .i32⟩ : BufTy).Contents (Elt F))
    (x2 : (⟨Cert.ReferenceIdeal.S500x16, .f32⟩ : BufTy).Contents (Elt F))
    (x3 : (⟨Cert.ReferenceIdeal.S16, .f32⟩ : BufTy).Contents (Elt F))
    (x4 : (⟨Cert.ReferenceIdeal.S16x7, .f32⟩ : BufTy).Contents (Elt F))
    (h46 : W (Proc.devRef .tc main_v46) = val_main_v48 (F := F) x0 x1 x2 x3 x4)
    (h3 : W (Proc.devRef .tc main_v3) = val_main_v3 (F := F) x1)
    (h6 : W (Proc.devRef .tc main_v6) = val_main_v6 (F := F) x1)
    (h29 : W (Proc.devRef .tc main_v29) = val_main_v29 (F := F) x1) :
    after (hostOps3 (F := F)) W (Proc.devRef .tc main_v59) = val_main_v61 (F := F) x0 x1 x2 x3 x4 := by
  after_results_simp
  rw [h46, h3, h6, h29]
  unfold val_main_v61 val_main_v60 val_main_v59 val_main_cst_11 val_main_v58 val_main_v57 val_main_v56 val_main_v55 val_main_v54
    val_main_v53 val_main_v52 val_main_v51 val_main_c_10 val_main_v50 val_main_v49 val_main_c_9
  rfl

/-- … and lays the second bias out as one row. -/
theorem stretch4_bias :
    after (hostOps3 (F := F)) W (Proc.devRef .tc main_v60)
      = shapeCast S1x7 (W (Proc.devRef .tc main_arg5)) shapeCasts_S7_S1x7 := by
  after_results
  rfl

end Stretches

/-! ## The fold, boundary by boundary -/

section Fold

variable (m : (ℓ : Loc nD τ sig) → Buf (Elt Ideal) ℓ) (ρ : Dev nD → PrngReg) (c : Dev nD)

/-- The launch contents of the six arguments. -/
abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)
abbrev A4 := m ((c.tc : Thread nD τ).loc main_arg4)
abbrev A5 := m ((c.tc : Thread nD τ).loc main_arg5)

/-! ### After the first stretch -/

theorem W1_src : W1 m ρ c (Proc.devRef .tc main_v3) = val_main_v3 (F := Ideal) (A1 m c) := stretch0_src (W0 m ρ c)
theorem W1_dst : W1 m ρ c (Proc.devRef .tc main_v6) = val_main_v6 (F := Ideal) (A1 m c) := stretch0_dst (W0 m ρ c)
theorem W1_degpos : W1 m ρ c (Proc.devRef .tc main_v12) = val_main_v12 (F := Ideal) (A1 m c) := stretch0_degpos (W0 m ρ c)
theorem W1_rsqrt : W1 m ρ c (Proc.devRef .tc main_v13) = val_main_v13 (F := Ideal) (A1 m c) := stretch0_rsqrt (W0 m ρ c)
theorem W1_zero : W1 m ρ c (Proc.devRef .tc main_cst_2) = val_main_cst_2 (F := Ideal) := stretch0_zero (W0 m ρ c)

/-! ### After the second -/

theorem W2_dinv : W2 m ρ c (Proc.devRef .tc main_v14) = val_main_v14 (F := Ideal) (A1 m c) :=
  stretch1_dinv (W1 m ρ c) (A1 m c) (W1_degpos m ρ c) (W1_rsqrt m ρ c) (W1_zero m ρ c)
theorem W2_src : W2 m ρ c (Proc.devRef .tc main_v3) = val_main_v3 (F := Ideal) (A1 m c) :=
  (show W2 m ρ c (Proc.devRef .tc main_v3) = W1 m ρ c (Proc.devRef .tc main_v3) by unwritten).trans (W1_src m ρ c)
theorem W2_dst : W2 m ρ c (Proc.devRef .tc main_v6) = val_main_v6 (F := Ideal) (A1 m c) :=
  (show W2 m ρ c (Proc.devRef .tc main_v6) = W1 m ρ c (Proc.devRef .tc main_v6) by unwritten).trans (W1_dst m ρ c)

/-! ### After the third: region 0's entry -/

theorem W3_norm : W3 m ρ c (Proc.devRef .tc main_v29) = val_main_v29 (F := Ideal) (A1 m c) :=
  stretch2_norm (W2 m ρ c) (A1 m c) (W2_src m ρ c) (W2_dst m ρ c) (W2_dinv m ρ c)
theorem W3_src : W3 m ρ c (Proc.devRef .tc main_v3) = val_main_v3 (F := Ideal) (A1 m c) :=
  (show W3 m ρ c (Proc.devRef .tc main_v3) = W2 m ρ c (Proc.devRef .tc main_v3) by unwritten).trans (W2_src m ρ c)
theorem W3_dst : W3 m ρ c (Proc.devRef .tc main_v6) = val_main_v6 (F := Ideal) (A1 m c) :=
  (show W3 m ρ c (Proc.devRef .tc main_v6) = W2 m ρ c (Proc.devRef .tc main_v6) by unwritten).trans (W2_dst m ρ c)

/-- The first three stretches write no argument. -/
theorem W3_arg0 : W3 m ρ c (Proc.devRef .tc main_arg0) = A0 m c :=
  calc W3 m ρ c (Proc.devRef .tc main_arg0)
    _ = W2 m ρ c (Proc.devRef .tc main_arg0) := by unwritten
    _ = W1 m ρ c (Proc.devRef .tc main_arg0) := by unwritten
    _ = W0 m ρ c (Proc.devRef .tc main_arg0) := by unwritten
    _ = A0 m c := rfl
theorem W3_arg2 : W3 m ρ c (Proc.devRef .tc main_arg2) = A2 m c :=
  calc W3 m ρ c (Proc.devRef .tc main_arg2)
    _ = W2 m ρ c (Proc.devRef .tc main_arg2) := by unwritten
    _ = W1 m ρ c (Proc.devRef .tc main_arg2) := by unwritten
    _ = W0 m ρ c (Proc.devRef .tc main_arg2) := by unwritten
    _ = A2 m c := rfl
theorem W3_arg3 : W3 m ρ c (Proc.devRef .tc main_arg3) = A3 m c :=
  calc W3 m ρ c (Proc.devRef .tc main_arg3)
    _ = W2 m ρ c (Proc.devRef .tc main_arg3) := by unwritten
    _ = W1 m ρ c (Proc.devRef .tc main_arg3) := by unwritten
    _ = W0 m ρ c (Proc.devRef .tc main_arg3) := by unwritten
    _ = A3 m c := rfl
theorem W3_arg4 : W3 m ρ c (Proc.devRef .tc main_arg4) = A4 m c :=
  calc W3 m ρ c (Proc.devRef .tc main_arg4)
    _ = W2 m ρ c (Proc.devRef .tc main_arg4) := by unwritten
    _ = W1 m ρ c (Proc.devRef .tc main_arg4) := by unwritten
    _ = W0 m ρ c (Proc.devRef .tc main_arg4) := by unwritten
    _ = A4 m c := rfl
theorem W3_arg5 : W3 m ρ c (Proc.devRef .tc main_arg5) = A5 m c :=
  calc W3 m ρ c (Proc.devRef .tc main_arg5)
    _ = W2 m ρ c (Proc.devRef .tc main_arg5) := by unwritten
    _ = W1 m ρ c (Proc.devRef .tc main_arg5) := by unwritten
    _ = W0 m ρ c (Proc.devRef .tc main_arg5) := by unwritten
    _ = A5 m c := rfl

/-! ### Region 0's exit: the first projection -/

theorem W4_proj : W4 m ρ c (Proc.devRef .tc main_v30) = val_main_v30 (F := Ideal) (A0 m c) (A2 m c) :=
  (W4_arr m ρ c 2).trans (Cert.Region0.value (V3 m ρ) c (A0 m c) (A2 m c) (W3_arg0 m ρ c) (W3_arg2 m ρ c))
theorem W4_src : W4 m ρ c (Proc.devRef .tc main_v3) = val_main_v3 (F := Ideal) (A1 m c) :=
  (W4_of_ne m ρ c main_v3 (by decide)).trans (W3_src m ρ c)
theorem W4_dst : W4 m ρ c (Proc.devRef .tc main_v6) = val_main_v6 (F := Ideal) (A1 m c) :=
  (W4_of_ne m ρ c main_v6 (by decide)).trans (W3_dst m ρ c)
theorem W4_norm : W4 m ρ c (Proc.devRef .tc main_v29) = val_main_v29 (F := Ideal) (A1 m c) :=
  (W4_of_ne m ρ c main_v29 (by decide)).trans (W3_norm m ρ c)
theorem W4_arg3 : W4 m ρ c (Proc.devRef .tc main_arg3) = A3 m c := (W4_of_ne m ρ c main_arg3 (by decide)).trans (W3_arg3 m ρ c)
theorem W4_arg4 : W4 m ρ c (Proc.devRef .tc main_arg4) = A4 m c := (W4_of_ne m ρ c main_arg4 (by decide)).trans (W3_arg4 m ρ c)
theorem W4_arg5 : W4 m ρ c (Proc.devRef .tc main_arg5) = A5 m c := (W4_of_ne m ρ c main_arg5 (by decide)).trans (W3_arg5 m ρ c)

/-! ### After the fourth stretch: region 1's entry, the first aggregation -/

theorem W5_agg : W5 m ρ c (Proc.devRef .tc main_v43) = val_main_v43 (F := Ideal) (A0 m c) (A1 m c) (A2 m c) :=
  stretch3_agg (W4 m ρ c) (A0 m c) (A1 m c) (A2 m c) (W4_proj m ρ c) (W4_src m ρ c) (W4_dst m ρ c) (W4_norm m ρ c)
theorem W5_bias : W5 m ρ c (Proc.devRef .tc main_v44) = shapeCast S1x16 (A3 m c) shapeCasts_S16_S1x16 :=
  (stretch3_bias (W4 m ρ c)).trans (congrArg (fun v => shapeCast S1x16 v shapeCasts_S16_S1x16) (W4_arg3 m ρ c))
theorem W5_src : W5 m ρ c (Proc.devRef .tc main_v3) = val_main_v3 (F := Ideal) (A1 m c) :=
  (show W5 m ρ c (Proc.devRef .tc main_v3) = W4 m ρ c (Proc.devRef .tc main_v3) by unwritten).trans (W4_src m ρ c)
theorem W5_dst : W5 m ρ c (Proc.devRef .tc main_v6) = val_main_v6 (F := Ideal) (A1 m c) :=
  (show W5 m ρ c (Proc.devRef .tc main_v6) = W4 m ρ c (Proc.devRef .tc main_v6) by unwritten).trans (W4_dst m ρ c)
theorem W5_norm : W5 m ρ c (Proc.devRef .tc main_v29) = val_main_v29 (F := Ideal) (A1 m c) :=
  (show W5 m ρ c (Proc.devRef .tc main_v29) = W4 m ρ c (Proc.devRef .tc main_v29) by unwritten).trans (W4_norm m ρ c)
theorem W5_arg4 : W5 m ρ c (Proc.devRef .tc main_arg4) = A4 m c :=
  (show W5 m ρ c (Proc.devRef .tc main_arg4) = W4 m ρ c (Proc.devRef .tc main_arg4) by unwritten).trans (W4_arg4 m ρ c)
theorem W5_arg5 : W5 m ρ c (Proc.devRef .tc main_arg5) = A5 m c :=
  (show W5 m ρ c (Proc.devRef .tc main_arg5) = W4 m ρ c (Proc.devRef .tc main_arg5) by unwritten).trans (W4_arg5 m ρ c)

/-! ### Region 1's exit: the hidden layer -/

theorem W6_hidden : W6 m ρ c (Proc.devRef .tc main_v45) = val_main_v47 (F := Ideal) (A0 m c) (A1 m c) (A2 m c) (A3 m c) :=
  (W6_arr m ρ c 2).trans ((Cert.Region1.value (V5 m ρ) c (val_main_v43 (F := Ideal) (A0 m c) (A1 m c) (A2 m c)) (A3 m c)
    (W5_agg m ρ c) (W5_bias m ρ c)).trans (Cert.RefSide.val_main_v47_eq (A0 m c) (A1 m c) (A2 m c) (A3 m c)).symm)
theorem W6_src : W6 m ρ c (Proc.devRef .tc main_v3) = val_main_v3 (F := Ideal) (A1 m c) :=
  (W6_of_ne m ρ c main_v3 (by decide)).trans (W5_src m ρ c)
theorem W6_dst : W6 m ρ c (Proc.devRef .tc main_v6) = val_main_v6 (F := Ideal) (A1 m c) :=
  (W6_of_ne m ρ c main_v6 (by decide)).trans (W5_dst m ρ c)
theorem W6_norm : W6 m ρ c (Proc.devRef .tc main_v29) = val_main_v29 (F := Ideal) (A1 m c) :=
  (W6_of_ne m ρ c main_v29 (by decide)).trans (W5_norm m ρ c)
theorem W6_arg4 : W6 m ρ c (Proc.devRef .tc main_arg4) = A4 m c := (W6_of_ne m ρ c main_arg4 (by decide)).trans (W5_arg4 m ρ c)
theorem W6_arg5 : W6 m ρ c (Proc.devRef .tc main_arg5) = A5 m c := (W6_of_ne m ρ c main_arg5 (by decide)).trans (W5_arg5 m ρ c)

/-! ### Region 2's exit: the second projection -/

theorem W7_proj : W7 m ρ c (Proc.devRef .tc main_v46)
    = val_main_v48 (F := Ideal) (A0 m c) (A1 m c) (A2 m c) (A3 m c) (A4 m c) :=
  (W7_arr m ρ c 2).trans ((Cert.Region2.value (V6 m ρ) c (val_main_v47 (F := Ideal) (A0 m c) (A1 m c) (A2 m c) (A3 m c)) (A4 m c)
    (W6_hidden m ρ c) (W6_arg4 m ρ c)).trans (Cert.RefSide.val_main_v48_eq (A0 m c) (A1 m c) (A2 m c) (A3 m c) (A4 m c)).symm)
theorem W7_src : W7 m ρ c (Proc.devRef .tc main_v3) = val_main_v3 (F := Ideal) (A1 m c) :=
  (W7_of_ne m ρ c main_v3 (by decide)).trans (W6_src m ρ c)
theorem W7_dst : W7 m ρ c (Proc.devRef .tc main_v6) = val_main_v6 (F := Ideal) (A1 m c) :=
  (W7_of_ne m ρ c main_v6 (by decide)).trans (W6_dst m ρ c)
theorem W7_norm : W7 m ρ c (Proc.devRef .tc main_v29) = val_main_v29 (F := Ideal) (A1 m c) :=
  (W7_of_ne m ρ c main_v29 (by decide)).trans (W6_norm m ρ c)
theorem W7_arg5 : W7 m ρ c (Proc.devRef .tc main_arg5) = A5 m c := (W7_of_ne m ρ c main_arg5 (by decide)).trans (W6_arg5 m ρ c)

/-! ### After the last stretch: region 3's entry, the second aggregation -/

theorem W8_agg : W8 m ρ c (Proc.devRef .tc main_v59)
    = val_main_v61 (F := Ideal) (A0 m c) (A1 m c) (A2 m c) (A3 m c) (A4 m c) :=
  stretch4_agg (W7 m ρ c) (A0 m c) (A1 m c) (A2 m c) (A3 m c) (A4 m c) (W7_proj m ρ c) (W7_src m ρ c) (W7_dst m ρ c) (W7_norm m ρ c)
theorem W8_bias : W8 m ρ c (Proc.devRef .tc main_v60) = shapeCast S1x7 (A5 m c) shapeCasts_S7_S1x7 :=
  (stretch4_bias (W7 m ρ c)).trans (congrArg (fun v => shapeCast S1x7 v shapeCasts_S7_S1x7) (W7_arg5 m ρ c))

/-! ### Region 3's exit: the result -/

/-- The kernel program's result array holds the reference's result stage of the launch contents of the arguments. -/
theorem result_eq : W9 m ρ c (Proc.devRef .tc main_v61)
    = val_main_v65 (F := Ideal) (A0 m c) (A1 m c) (A2 m c) (A3 m c) (A4 m c) (A5 m c) :=
  (W9_arr m ρ c 2).trans ((Cert.Region3.value (V8 m ρ) c
      (val_main_v61 (F := Ideal) (A0 m c) (A1 m c) (A2 m c) (A3 m c) (A4 m c)) (A5 m c) (W8_agg m ρ c) (W8_bias m ρ c)).trans
    (Cert.RefSide.val_main_v65_eq (A0 m c) (A1 m c) (A2 m c) (A3 m c) (A4 m c) (A5 m c)).symm)

end Fold

end Cert.Fold

end
-- ==== Proof.lean ====
/-
  A two-layer graph convolution in four kernel regions, against the plain reference: the certificate's claims.

  Both programs normalise the graph the same way (self-loops appended, each edge weighted by the reciprocal square roots
  of its two ends' degrees) and aggregate a layer's projected rows the same way (gather at the sources, scale, sum into
  the destinations); those parts are the same host operations in both and are never opened. The kernel computes the
  three dense stages in blocks of 2000 rows: the two projections as block products accumulated from zero, the first
  epilogue `max(· + b1, 0)`, the second `log_softmax(· + b2)`. Over the extended reals each is, index by index, the
  reference's stage: a block product from zero is the same finite sum as the whole product; the maximum of a row taken
  from `-inf` is unchanged by taking it against `-inf` once more. No law used needs the inputs to be finite, so the
  precondition is never opened.

  The frames of the two kernel programs are the generated ones; the reference's frame is its run with the result
  dropped; the idealization rewrote nothing. The value claim: the kernel program's run names its result array's
  contents (the last segment boundary's), those are the reference's result stage of the arguments, and the reference's
  run ends at that stage of arguments that agree.
-/
import proofs.«138651_j89704686944356_1_alg».proof.Defs
import proofs.«138651_j89704686944356_1_alg».proof.Proof.Gen.Kernel
import proofs.«138651_j89704686944356_1_alg».proof.Proof.Gen.Kernel.Frame
import proofs.«138651_j89704686944356_1_alg».proof.Proof.Gen.KernelIdeal
import proofs.«138651_j89704686944356_1_alg».proof.Proof.Gen.KernelIdeal.Frame
import proofs.«138651_j89704686944356_1_alg».proof.Proof.Gen.ReferenceIdeal
import proofs.«138651_j89704686944356_1_alg».proof.Proof.Gen.Pre_finite_inputs
import proofs.«138651_j89704686944356_1_alg».proof.Proof.KernelRun
import proofs.«138651_j89704686944356_1_alg».proof.Proof.RefRun
import proofs.«138651_j89704686944356_1_alg».proof.Proof.RefRead
import proofs.«138651_j89704686944356_1_alg».proof.Proof.Fold
import Idealize.ShloMosaic.Adequacy
import Idealize.ShloMosaic.Init

noncomputable section

namespace Cert.Proof

open Idealize.ShloMosaic Idealize.SL.Sem

/-- The kernel program, word by word, runs and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs end with the same result: the kernel program's result array
    holds the last boundary's contents, which are the reference's result stage of the arguments. -/
theorem algebraic : Cert.algebraic_KernelIdeal_ReferenceIdeal := by
  intro m ρ m' ρ' _ hagree
  refine ⟨fun c => Cert.KernelIdeal.Gen.W9 m ρ c (Proc.devRef .tc Cert.KernelIdeal.main_v61),
    Cert.KernelIdeal.ValueRun.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v65_eq, (hagree c).1, (hagree c).2.1, (hagree c).2.2.1, (hagree c).2.2.2.1,
    (hagree c).2.2.2.2.1, (hagree c).2.2.2.2.2]
  exact (Cert.Fold.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
